-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x3 : Shape := ⟨4, ![1, 256, 256, 3]⟩
abbrev S16x11x256x256x2 : Shape := ⟨5, ![16, 11, 256, 256, 2]⟩
abbrev S_ : Shape := ⟨0, ![]⟩

class Facts : Prop where
  bcast_S_S1x256x256x3 : S_.BroadcastsInDim S1x256x256x3 (![] : Fin 0 → Fin S1x256x256x3.rank)
  reducesTo_S1x256x256x3_S_d0_1_2_3 : S1x256x256x3.ReducesTo [0, 1, 2, 3] S_
  h_S_ : 0 < S_.numel
  bcast_S_S16x11x256x256x2 : S_.BroadcastsInDim S16x11x256x256x2 (![] : Fin 0 → Fin S16x11x256x256x2.rank)
  reducesTo_S16x11x256x256x2_S_d0_1_2_3_4 : S16x11x256x256x2.ReducesTo [0, 1, 2, 3, 4] S_

variable [Facts]

def fn {F : FTy → Type} [FloatOps F] (main_arg0 : FVec F S1x256x256x3 .f32) (main_arg1 : FVec F S16x11x256x256x2 .f32) : IVec S_ 1 :=
  let main_v0 : FVec F S1x256x256x3 .f32 := Host.absf main_arg0
  let main_cst : FVec F S_ .f32 := constant S_ .f32 0x7F800000#32
  let main_v1 : FVec F S1x256x256x3 .f32 := broadcastInDim S1x256x256x3 ![] bcast_S_S1x256x256x3 main_cst
  let main_v2 : IVec S1x256x256x3 1 := cmpf .olt main_v0 main_v1
  let main_c : IVec S_ 1 := constantI S_ 1 1#1
  let main_v3 : IVec S_ 1 := (fun x v => Host.reduce IntOp.andi x v reducesTo_S1x256x256x3_S_d0_1_2_3 h_S_) main_v2 main_c
  let main_v4 : FVec F S16x11x256x256x2 .f32 := Host.absf main_arg1
  let main_cst_0 : FVec F S_ .f32 := constant S_ .f32 0x7F800000#32
  let main_v5 : FVec F S16x11x256x256x2 .f32 := broadcastInDim S16x11x256x256x2 ![] bcast_S_S16x11x256x256x2 main_cst_0
  let main_v6 : IVec S16x11x256x256x2 1 := cmpf .olt main_v4 main_v5
  let main_c_1 : IVec S_ 1 := constantI S_ 1 1#1
  let main_v7 : IVec S_ 1 := (fun x v => Host.reduce IntOp.andi x v reducesTo_S16x11x256x256x2_S_d0_1_2_3_4 h_S_) main_v6 main_c_1
  let main_v8 : IVec S_ 1 := andi main_v3 main_v7
  main_v8
-- ==== Kernel.lean ====
abbrev S1x256x256x3 : Shape := ⟨4, ![1, 256, 256, 3]⟩
abbrev S16x11x256x256x2 : Shape := ⟨5, ![16, 11, 256, 256, 2]⟩
abbrev S256x256x3 : Shape := ⟨3, ![256, 256, 3]⟩
abbrev S176x256x256x2 : Shape := ⟨4, ![176, 256, 256, 2]⟩
abbrev S176x256x256x1 : Shape := ⟨4, ![176, 256, 256, 1]⟩
abbrev S176x256x256 : Shape := ⟨3, ![176, 256, 256]⟩
abbrev S_ : Shape := ⟨0, ![]⟩
abbrev S176x256x256x3 : Shape := ⟨4, ![176, 256, 256, 3]⟩
abbrev S176x256x256x12 : Shape := ⟨4, ![176, 256, 256, 12]⟩
abbrev S2x256x256x2 : Shape := ⟨4, ![2, 256, 256, 2]⟩
abbrev S2x256x256x12 : Shape := ⟨4, ![2, 256, 256, 12]⟩
abbrev S2x256x256x3 : Shape := ⟨4, ![2, 256, 256, 3]⟩
abbrev S2x256x256x1 : Shape := ⟨4, ![2, 256, 256, 1]⟩
abbrev S2x256x256 : Shape := ⟨3, ![2, 256, 256]⟩
abbrev S16x11x256x256x3 : Shape := ⟨5, ![16, 11, 256, 256, 3]⟩

abbrev nBuf : Space → Nat
  | .hbm => 199
  | .vmem => 6
  | .smem => 0
  | _ => 0

abbrev hbmTy0_0 (i : Nat) : BufTy := match i % 128 with
  | 0 => ⟨S1x256x256x3, .f32⟩
  | 1 => ⟨S16x11x256x256x2, .f32⟩
  | 2 => ⟨S256x256x3, .f32⟩
  | 3 => ⟨S176x256x256x2, .f32⟩
  | 4 => ⟨S176x256x256x1, .f32⟩
  | 5 => ⟨S176x256x256, .f32⟩
  | 6 => ⟨S_, .f32⟩
  | 7 => ⟨S176x256x256, .f32⟩
  | 8 => ⟨S176x256x256, .f32⟩
  | 9 => ⟨S_, .f32⟩
  | 10 => ⟨S176x256x256, .f32⟩
  | 11 => ⟨S176x256x256, .f32⟩
  | 12 => ⟨S_, .f32⟩
  | 13 => ⟨S176x256x256, .f32⟩
  | 14 => ⟨S176x256x256, .f32⟩
  | 15 => ⟨S176x256x256x1, .f32⟩
  | 16 => ⟨S176x256x256, .f32⟩
  | 17 => ⟨S_, .f32⟩
  | 18 => ⟨S176x256x256, .f32⟩
  | 19 => ⟨S176x256x256, .f32⟩
  | 20 => ⟨S_, .f32⟩
  | 21 => ⟨S176x256x256, .f32⟩
  | 22 => ⟨S176x256x256, .f32⟩
  | 23 => ⟨S_, .f32⟩
  | 24 => ⟨S176x256x256, .f32⟩
  | 25 => ⟨S176x256x256, .f32⟩
  | 26 => ⟨S176x256x256, .f32⟩
  | 27 => ⟨S176x256x256, .f32⟩
  | 28 => ⟨S176x256x256, .i32⟩
  | 29 => ⟨S176x256x256, .i32⟩
  | 30 => ⟨S_, .i32⟩
  | 31 => ⟨S176x256x256, .i32⟩
  | 32 => ⟨S176x256x256, .i32⟩
  | 33 => ⟨S_, .i32⟩
  | 34 => ⟨S176x256x256, .i32⟩
  | 35 => ⟨S176x256x256, .i32⟩
  | 36 => ⟨S_, .i32⟩
  | 37 => ⟨S176x256x256, .i32⟩
  | 38 => ⟨S176x256x256, .i1⟩
  | 39 => ⟨S_, .i32⟩
  | 40 => ⟨S176x256x256, .i32⟩
  | 41 => ⟨S176x256x256, .i1⟩
  | 42 => ⟨S176x256x256, .i1⟩
  | 43 => ⟨S_, .i32⟩
  | 44 => ⟨S176x256x256, .i32⟩
  | 45 => ⟨S176x256x256, .i1⟩
  | 46 => ⟨S_, .i32⟩
  | 47 => ⟨S176x256x256, .i32⟩
  | 48 => ⟨S176x256x256, .i1⟩
  | 49 => ⟨S176x256x256, .i1⟩
  | 50 => ⟨S_, .i32⟩
  | 51 => ⟨S176x256x256, .i32⟩
  | 52 => ⟨S176x256x256, .i1⟩
  | 53 => ⟨S_, .i32⟩
  | 54 => ⟨S176x256x256, .i32⟩
  | 55 => ⟨S176x256x256, .i1⟩
  | 56 => ⟨S176x256x256, .i1⟩
  | 57 => ⟨S_, .i32⟩
  | 58 => ⟨S176x256x256, .i32⟩
  | 59 => ⟨S176x256x256, .i1⟩
  | 60 => ⟨S_, .i32⟩
  | 61 => ⟨S176x256x256, .i32⟩
  | 62 => ⟨S176x256x256, .i1⟩
  | 63 => ⟨S176x256x256, .i1⟩
  | 64 => ⟨S176x256x256, .i1⟩
  | 65 => ⟨S_, .i32⟩
  | 66 => ⟨S_, .i32⟩
  | 67 => ⟨S176x256x256, .i32⟩
  | 68 => ⟨S176x256x256, .i32⟩
  | 69 => ⟨S_, .i32⟩
  | 70 => ⟨S_, .i32⟩
  | 71 => ⟨S176x256x256, .i32⟩
  | 72 => ⟨S176x256x256, .i32⟩
  | 73 => ⟨S_, .i32⟩
  | 74 => ⟨S176x256x256, .i32⟩
  | 75 => ⟨S176x256x256, .i1⟩
  | 76 => ⟨S_, .i32⟩
  | 77 => ⟨S176x256x256, .i32⟩
  | 78 => ⟨S176x256x256, .i32⟩
  | 79 => ⟨S176x256x256, .i32⟩
  | 80 => ⟨S_, .i32⟩
  | 81 => ⟨S176x256x256, .i32⟩
  | 82 => ⟨S176x256x256, .i1⟩
  | 83 => ⟨S_, .i32⟩
  | 84 => ⟨S176x256x256, .i32⟩
  | 85 => ⟨S176x256x256, .i32⟩
  | 86 => ⟨S176x256x256, .i32⟩
  | 87 => ⟨S176x256x256x1, .i32⟩
  | 88 => ⟨S176x256x256x1, .i32⟩
  | 89 => ⟨S176x256x256x2, .i32⟩
  | 90 => ⟨S176x256x256x3, .f32⟩
  | 91 => ⟨S176x256x256x1, .i1⟩
  | 92 => ⟨S_, .f32⟩
  | 93 => ⟨S_, .f32⟩
  | 94 => ⟨S176x256x256x3, .i1⟩
  | 95 => ⟨S176x256x256x3, .f32⟩
  | 96 => ⟨S176x256x256x3, .f32⟩
  | 97 => ⟨S176x256x256, .i1⟩
  | 98 => ⟨S_, .i32⟩
  | 99 => ⟨S_, .i32⟩
  | 100 => ⟨S176x256x256, .i32⟩
  | 101 => ⟨S176x256x256, .i32⟩
  | 102 => ⟨S_, .i32⟩
  | 103 => ⟨S_, .i32⟩
  | 104 => ⟨S176x256x256, .i32⟩
  | 105 => ⟨S176x256x256, .i32⟩
  | 106 => ⟨S_, .i32⟩
  | 107 => ⟨S176x256x256, .i32⟩
  | 108 => ⟨S176x256x256, .i1⟩
  | 109 => ⟨S_, .i32⟩
  | 110 => ⟨S176x256x256, .i32⟩
  | 111 => ⟨S176x256x256, .i32⟩
  | 112 => ⟨S176x256x256, .i32⟩
  | 113 => ⟨S_, .i32⟩
  | 114 => ⟨S176x256x256, .i32⟩
  | 115 => ⟨S176x256x256, .i1⟩
  | 116 => ⟨S_, .i32⟩
  | 117 => ⟨S176x256x256, .i32⟩
  | 118 => ⟨S176x256x256, .i32⟩
  | 119 => ⟨S176x256x256, .i32⟩
  | 120 => ⟨S176x256x256x1, .i32⟩
  | 121 => ⟨S176x256x256x1, .i32⟩
  | 122 => ⟨S176x256x256x2, .i32⟩
  | 123 => ⟨S176x256x256x3, .f32⟩
  | 124 => ⟨S176x256x256x1, .i1⟩
  | 125 => ⟨S_, .f32⟩
  | 126 => ⟨S_, .f32⟩
  | 127 => ⟨S176x256x256x3, .i1⟩
  | _ => ⟨S1x256x256x3, .f32⟩

abbrev hbmTy0_1 (i : Nat) : BufTy := match i % 128 with
  | 0 => ⟨S176x256x256x3, .f32⟩
  | 1 => ⟨S176x256x256x3, .f32⟩
  | 2 => ⟨S176x256x256, .i1⟩
  | 3 => ⟨S_, .i32⟩
  | 4 => ⟨S_, .i32⟩
  | 5 => ⟨S176x256x256, .i32⟩
  | 6 => ⟨S176x256x256, .i32⟩
  | 7 => ⟨S_, .i32⟩
  | 8 => ⟨S_, .i32⟩
  | 9 => ⟨S176x256x256, .i32⟩
  | 10 => ⟨S176x256x256, .i32⟩
  | 11 => ⟨S_, .i32⟩
  | 12 => ⟨S176x256x256, .i32⟩
  | 13 => ⟨S176x256x256, .i1⟩
  | 14 => ⟨S_, .i32⟩
  | 15 => ⟨S176x256x256, .i32⟩
  | 16 => ⟨S176x256x256, .i32⟩
  | 17 => ⟨S176x256x256, .i32⟩
  | 18 => ⟨S_, .i32⟩
  | 19 => ⟨S176x256x256, .i32⟩
  | 20 => ⟨S176x256x256, .i1⟩
  | 21 => ⟨S_, .i32⟩
  | 22 => ⟨S176x256x256, .i32⟩
  | 23 => ⟨S176x256x256, .i32⟩
  | 24 => ⟨S176x256x256, .i32⟩
  | 25 => ⟨S176x256x256x1, .i32⟩
  | 26 => ⟨S176x256x256x1, .i32⟩
  | 27 => ⟨S176x256x256x2, .i32⟩
  | 28 => ⟨S176x256x256x3, .f32⟩
  | 29 => ⟨S176x256x256x1, .i1⟩
  | 30 => ⟨S_, .f32⟩
  | 31 => ⟨S_, .f32⟩
  | 32 => ⟨S176x256x256x3, .i1⟩
  | 33 => ⟨S176x256x256x3, .f32⟩
  | 34 => ⟨S176x256x256x3, .f32⟩
  | 35 => ⟨S176x256x256, .i1⟩
  | 36 => ⟨S_, .i32⟩
  | 37 => ⟨S_, .i32⟩
  | 38 => ⟨S176x256x256, .i32⟩
  | 39 => ⟨S176x256x256, .i32⟩
  | 40 => ⟨S_, .i32⟩
  | 41 => ⟨S_, .i32⟩
  | 42 => ⟨S176x256x256, .i32⟩
  | 43 => ⟨S176x256x256, .i32⟩
  | 44 => ⟨S_, .i32⟩
  | 45 => ⟨S176x256x256, .i32⟩
  | 46 => ⟨S176x256x256, .i1⟩
  | 47 => ⟨S_, .i32⟩
  | 48 => ⟨S176x256x256, .i32⟩
  | 49 => ⟨S176x256x256, .i32⟩
  | 50 => ⟨S176x256x256, .i32⟩
  | 51 => ⟨S_, .i32⟩
  | 52 => ⟨S176x256x256, .i32⟩
  | 53 => ⟨S176x256x256, .i1⟩
  | 54 => ⟨S_, .i32⟩
  | 55 => ⟨S176x256x256, .i32⟩
  | 56 => ⟨S176x256x256, .i32⟩
  | 57 => ⟨S176x256x256, .i32⟩
  | 58 => ⟨S176x256x256x1, .i32⟩
  | 59 => ⟨S176x256x256x1, .i32⟩
  | 60 => ⟨S176x256x256x2, .i32⟩
  | 61 => ⟨S176x256x256x3, .f32⟩
  | 62 => ⟨S176x256x256x1, .i1⟩
  | 63 => ⟨S_, .f32⟩
  | 64 => ⟨S_, .f32⟩
  | 65 => ⟨S176x256x256x3, .i1⟩
  | 66 => ⟨S176x256x256x3, .f32⟩
  | 67 => ⟨S176x256x256x3, .f32⟩
  | 68 => ⟨S176x256x256x12, .f32⟩
  | 69 => ⟨S176x256x256x3, .f32⟩
  | 70 => ⟨S16x11x256x256x3, .f32⟩
  | _ => ⟨S1x256x256x3, .f32⟩

abbrev hbmTy (i : Nat) : BufTy := match i / 128 with
  | 0 => hbmTy0_0 i
  | 1 => hbmTy0_1 i
  | _ => ⟨S1x256x256x3, .f32⟩

abbrev bufTy : (tb : Table) → Fin (tcTables nBuf tb) → BufTy
  | .hbm, ⟨i, _⟩ => hbmTy i
  | .local _ .vmem, ⟨0, _⟩ => ⟨S2x256x256x2, .f32⟩
  | .local _ .vmem, ⟨1, _⟩ => ⟨S2x256x256x2, .f32⟩
  | .local _ .vmem, ⟨2, _⟩ => ⟨S2x256x256x12, .f32⟩
  | .local _ .vmem, ⟨3, _⟩ => ⟨S2x256x256x12, .f32⟩
  | .local _ .vmem, ⟨4, _⟩ => ⟨S2x256x256x3, .f32⟩
  | .local _ .vmem, ⟨5, _⟩ => ⟨S2x256x256x3, .f32⟩
  | _, _ => ⟨S1x256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_c_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_v37 : Ref sig .tc := ⟨.hbm, 52, rfl⟩
abbrev main_c_11 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_12 : Ref sig .tc := ⟨.hbm, 57, rfl⟩
abbrev main_v41 : Ref sig .tc := ⟨.hbm, 58, rfl⟩
abbrev main_v42 : Ref sig .tc := ⟨.hbm, 59, rfl⟩
abbrev main_c_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_14 : Ref sig .tc := ⟨.hbm, 65, rfl⟩
abbrev main_call0_v0 : Ref sig .tc := ⟨.hbm, 66, rfl⟩
abbrev main_call0_v1 : Ref sig .tc := ⟨.hbm, 67, rfl⟩
abbrev main_v47 : Ref sig .tc := ⟨.hbm, 68, rfl⟩
abbrev main_c_15 : Ref sig .tc := ⟨.hbm, 69, rfl⟩
abbrev main_call1_v0 : Ref sig .tc := ⟨.hbm, 70, rfl⟩
abbrev main_call1_v1 : Ref sig .tc := ⟨.hbm, 71, rfl⟩
abbrev main_v48 : Ref sig .tc := ⟨.hbm, 72, rfl⟩
abbrev main_c_16 : Ref sig .tc := ⟨.hbm, 73, rfl⟩
abbrev main_v49 : Ref sig .tc := ⟨.hbm, 74, rfl⟩
abbrev main_v50 : Ref sig .tc := ⟨.hbm, 75, rfl⟩
abbrev main_c_17 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_18 : Ref sig .tc := ⟨.hbm, 80, rfl⟩
abbrev main_v54 : Ref sig .tc := ⟨.hbm, 81, rfl⟩
abbrev main_v55 : Ref sig .tc := ⟨.hbm, 82, rfl⟩
abbrev main_c_19 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_20 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v64 : Ref sig .tc := ⟨.hbm, 96, rfl⟩
abbrev main_v65 : Ref sig .tc := ⟨.hbm, 97, rfl⟩
abbrev main_c_21 : Ref sig .tc := ⟨.hbm, 98, rfl⟩
abbrev main_call3_v0 : Ref sig .tc := ⟨.hbm, 99, rfl⟩
abbrev main_call3_v1 : Ref sig .tc := ⟨.hbm, 100, rfl⟩
abbrev main_v66 : Ref sig .tc := ⟨.hbm, 101, rfl⟩
abbrev main_c_22 : Ref sig .tc := ⟨.hbm, 102, rfl⟩
abbrev main_call4_v0 : Ref sig .tc := ⟨.hbm, 103, rfl⟩
abbrev main_call4_v1 : Ref sig .tc := ⟨.hbm, 104, rfl⟩
abbrev main_v67 : Ref sig .tc := ⟨.hbm, 105, rfl⟩
abbrev main_c_23 : Ref sig .tc := ⟨.hbm, 106, rfl⟩
abbrev main_v68 : Ref sig .tc := ⟨.hbm, 107, rfl⟩
abbrev main_v69 : Ref sig .tc := ⟨.hbm, 108, rfl⟩
abbrev main_c_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_25 : Ref sig .tc := ⟨.hbm, 113, rfl⟩
abbrev main_v73 : Ref sig .tc := ⟨.hbm, 114, rfl⟩
abbrev main_v74 : Ref sig .tc := ⟨.hbm, 115, rfl⟩
abbrev main_c_26 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_27 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v83 : Ref sig .tc := ⟨.hbm, 129, rfl⟩
abbrev main_v84 : Ref sig .tc := ⟨.hbm, 130, rfl⟩
abbrev main_c_28 : Ref sig .tc := ⟨.hbm, 131, rfl⟩
abbrev main_call6_v0 : Ref sig .tc := ⟨.hbm, 132, rfl⟩
abbrev main_call6_v1 : Ref sig .tc := ⟨.hbm, 133, rfl⟩
abbrev main_v85 : Ref sig .tc := ⟨.hbm, 134, rfl⟩
abbrev main_c_29 : Ref sig .tc := ⟨.hbm, 135, rfl⟩
abbrev main_call7_v0 : Ref sig .tc := ⟨.hbm, 136, rfl⟩
abbrev main_call7_v1 : Ref sig .tc := ⟨.hbm, 137, rfl⟩
abbrev main_v86 : Ref sig .tc := ⟨.hbm, 138, rfl⟩
abbrev main_c_30 : Ref sig .tc := ⟨.hbm, 139, rfl⟩
abbrev main_v87 : Ref sig .tc := ⟨.hbm, 140, rfl⟩
abbrev main_v88 : Ref sig .tc := ⟨.hbm, 141, rfl⟩
abbrev main_c_31 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_c_32 : Ref sig .tc := ⟨.hbm, 146, rfl⟩
abbrev main_v92 : Ref sig .tc := ⟨.hbm, 147, rfl⟩
abbrev main_v93 : Ref sig .tc := ⟨.hbm, 148, rfl⟩
abbrev main_c_33 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_34 : Ref sig .tc := ⟨.hbm, 158, rfl⟩
abbrev main_call8_v0 : Ref sig .tc := ⟨.hbm, 159, rfl⟩
abbrev main_call8_v1 : Ref sig .tc := ⟨.hbm, 160, rfl⟩
abbrev main_call8_v2 : Ref sig .tc := ⟨.hbm, 161, rfl⟩
abbrev main_v102 : Ref sig .tc := ⟨.hbm, 162, rfl⟩
abbrev main_v103 : Ref sig .tc := ⟨.hbm, 163, rfl⟩
abbrev main_c_35 : Ref sig .tc := ⟨.hbm, 164, rfl⟩
abbrev main_call9_v0 : Ref sig .tc := ⟨.hbm, 165, rfl⟩
abbrev main_call9_v1 : Ref sig .tc := ⟨.hbm, 166, rfl⟩
abbrev main_v104 : Ref sig .tc := ⟨.hbm, 167, rfl⟩
abbrev main_c_36 : Ref sig .tc := ⟨.hbm, 168, rfl⟩
abbrev main_call10_v0 : Ref sig .tc := ⟨.hbm, 169, rfl⟩
abbrev main_call10_v1 : Ref sig .tc := ⟨.hbm, 170, rfl⟩
abbrev main_v105 : Ref sig .tc := ⟨.hbm, 171, rfl⟩
abbrev main_c_37 : Ref sig .tc := ⟨.hbm, 172, rfl⟩
abbrev main_v106 : Ref sig .tc := ⟨.hbm, 173, rfl⟩
abbrev main_v107 : Ref sig .tc := ⟨.hbm, 174, rfl⟩
abbrev main_c_38 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_c_39 : Ref sig .tc := ⟨.hbm, 179, rfl⟩
abbrev main_v111 : Ref sig .tc := ⟨.hbm, 180, rfl⟩
abbrev main_v112 : Ref sig .tc := ⟨.hbm, 181, rfl⟩
abbrev main_c_40 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_cst_41 : Ref sig .tc := ⟨.hbm, 191, rfl⟩
abbrev main_call11_v0 : Ref sig .tc := ⟨.hbm, 192, rfl⟩
abbrev main_call11_v1 : Ref sig .tc := ⟨.hbm, 193, rfl⟩
abbrev main_call11_v2 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![88], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x256x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x256x256x3_S256x256x3 : S1x256x256x3.ShapeCasts S256x256x3
  shapeCasts_S16x11x256x256x2_S176x256x256x2 : S16x11x256x256x2.ShapeCasts S176x256x256x2
  slices_S176x256x256x2_S176x256x256x1_0_0_0_0 : S176x256x256x2.Slices ![0, 0, 0, 0] S176x256x256x1
  shapeCasts_S176x256x256x1_S176x256x256 : S176x256x256x1.ShapeCasts S176x256x256
  bcast_S_S176x256x256 : S_.BroadcastsInDim S176x256x256 (![] : Fin 0 → Fin S176x256x256.rank)
  slices_S176x256x256x2_S176x256x256x1_0_0_0_1 : S176x256x256x2.Slices ![0, 0, 0, 1] S176x256x256x1
  bcast_S176x256x256_S176x256x256x1_0_1_2 : S176x256x256.BroadcastsInDim S176x256x256x1 (![0, 1, 2] : Fin 3 → Fin S176x256x256x1.rank)
  concatenates_S176x256x256x1_S176x256x256x1_S176x256x256x2_d3 : Shape.Concatenates [S176x256x256x1, S176x256x256x1] S176x256x256x2 3
  bcast_S176x256x256x1_S176x256x256x3_0_1_2_3 : S176x256x256x1.BroadcastsInDim S176x256x256x3 (![0, 1, 2, 3] : Fin 4 → Fin S176x256x256x3.rank)
  bcast_S_S176x256x256x3 : S_.BroadcastsInDim S176x256x256x3 (![] : Fin 0 → Fin S176x256x256x3.rank)
  concatenates_S176x256x256x3_S176x256x256x3_S176x256x256x3_S176x256x256x3_S176x256x256x12_d3 : Shape.Concatenates [S176x256x256x3, S176x256x256x3, S176x256x256x3, S176x256x256x3] S176x256x256x12 3
  inb_S2x256x256x2_S2x256x256x2_0_0_0_0 : ∀ a, (![0, 0, 0, 0] : Fin 4 → Nat) a + S2x256x256x2.size a ≤ S2x256x256x2.size a
  h_S2x256x256x2 : 0 < S2x256x256x2.numel
  shapeCasts_S2x256x256x2_S2x256x256x2 : S2x256x256x2.ShapeCasts S2x256x256x2
  slices_S2x256x256x2_o0_0_0_0_S2x256x256x1 : S2x256x256x2.Slices ![0, 0, 0, 0] S2x256x256x1
  shapeCasts_S2x256x256x1_S2x256x256 : S2x256x256x1.ShapeCasts S2x256x256
  slices_S2x256x256x2_o0_0_0_1_S2x256x256x1 : S2x256x256x2.Slices ![0, 0, 0, 1] S2x256x256x1
  inb_S2x256x256x12_S2x256x256x12_0_0_0_0 : ∀ a, (![0, 0, 0, 0] : Fin 4 → Nat) a + S2x256x256x12.size a ≤ S2x256x256x12.size a
  h_S2x256x256x12 : 0 < S2x256x256x12.numel
  shapeCasts_S2x256x256x12_S2x256x256x12 : S2x256x256x12.ShapeCasts S2x256x256x12
  slices_S2x256x256x12_o0_0_0_0_S2x256x256x3 : S2x256x256x12.Slices ![0, 0, 0, 0] S2x256x256x3
  slices_S2x256x256x12_o0_0_0_3_S2x256x256x3 : S2x256x256x12.Slices ![0, 0, 0, 3] S2x256x256x3
  slices_S2x256x256x12_o0_0_0_6_S2x256x256x3 : S2x256x256x12.Slices ![0, 0, 0, 6] S2x256x256x3
  slices_S2x256x256x12_o0_0_0_9_S2x256x256x3 : S2x256x256x12.Slices ![0, 0, 0, 9] S2x256x256x3
  shapeCasts_S2x256x256_S2x256x256x1 : S2x256x256.ShapeCasts S2x256x256x1
  broadcasts_S2x256x256x1_S2x256x256x3 : S2x256x256x1.Broadcasts S2x256x256x3
  inb_S2x256x256x3_S2x256x256x3_0_0_0_0 : ∀ a, (![0, 0, 0, 0] : Fin 4 → Nat) a + S2x256x256x3.size a ≤ S2x256x256x3.size a
  h_S2x256x256x3 : 0 < S2x256x256x3.numel
  shapeCasts_S176x256x256x3_S16x11x256x256x3 : S176x256x256x3.ShapeCasts S16x11x256x256x3
  gather_S256x256x3_S176x256x256x2_S176x256x256x3_3_01_n_n_01_3_113_wf : GatherDims.WF S256x256x3 S176x256x256x2 S176x256x256x3 [3] [0, 1] [] [0, 1] [] 3 ![1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x256x2.size a ≤ S176x256x256x2.size a
  hwx0_0 : ∀ i : grid0.Coords, EltTy.bits .f32 = 32 ∨ (Rect.block (s := S176x256x256x2) S2x256x256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x256x12.size a ≤ S176x256x256x12.size a
  hwx0_1 : ∀ i : grid0.Coords, EltTy.bits .f32 = 32 ∨ (Rect.block (s := S176x256x256x12) S2x256x256x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x256x3.size a ≤ S176x256x256x3.size a
  hwx0_2 : ∀ i : grid0.Coords, EltTy.bits .f32 = 32 ∨ (Rect.block (s := S176x256x256x3) S2x256x256x3.size (cc0_transform_2 i) (hinb0_2 i)).WholeWords (EltTy.packing .f32)

variable [Facts₀]

def gather_S256x256x3_S176x256x256x2_S176x256x256x3_3_01_n_n_01_3_113 : GatherDims S256x256x3 S176x256x256x2 S176x256x256x3 where
  offsetDims := [3]
  collapsedSliceDims := [0, 1]
  operandBatchingDims := []
  startIndicesBatchingDims := []
  startIndexMap := [0, 1]
  indexVectorDim := 3
  sliceSizes := ![1, 1, 3]
  wf := gather_S256x256x3_S176x256x256x2_S176x256x256x3_3_01_n_n_01_3_113_wf

abbrev win0_0 : Pipeline.Window sig grid0 :=
  Pipeline.Window.ofSpec (Memref.whole main_v1) S2x256x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v122) S2x256x256x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v123) S2x256x256x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x256x256x3 : Shape := ⟨4, ![1, 256, 256, 3]⟩
abbrev S16x11x256x256x2 : Shape := ⟨5, ![16, 11, 256, 256, 2]⟩
abbrev S1x1x256x256x3 : Shape := ⟨5, ![1, 1, 256, 256, 3]⟩
abbrev S16x11x256x256x3 : Shape := ⟨5, ![16, 11, 256, 256, 3]⟩
abbrev S176x256x256x3 : Shape := ⟨4, ![176, 256, 256, 3]⟩
abbrev S176x256x256x2 : Shape := ⟨4, ![176, 256, 256, 2]⟩
abbrev S176x256x256x1 : Shape := ⟨4, ![176, 256, 256, 1]⟩
abbrev S176x256x256 : Shape := ⟨3, ![176, 256, 256]⟩
abbrev S_ : Shape := ⟨0, ![]⟩
abbrev S176 : Shape := ⟨1, ![176]⟩
abbrev S176x1x1 : Shape := ⟨3, ![176, 1, 1]⟩

abbrev nBuf : Space → Nat
  | .hbm => 264
  | .vmem => 0
  | .smem => 0
  | _ => 0

abbrev hbmTy0_0 (i : Nat) : BufTy := match i % 128 with
  | 0 => ⟨S1x256x256x3, .f32⟩
  | 1 => ⟨S16x11x256x256x2, .f32⟩
  | 2 => ⟨S1x1x256x256x3, .f32⟩
  | 3 => ⟨S16x11x256x256x3, .f32⟩
  | 4 => ⟨S176x256x256x3, .f32⟩
  | 5 => ⟨S176x256x256x2, .f32⟩
  | 6 => ⟨S176x256x256x1, .f32⟩
  | 7 => ⟨S176x256x256, .f32⟩
  | 8 => ⟨S_, .f32⟩
  | 9 => ⟨S176x256x256, .f32⟩
  | 10 => ⟨S176x256x256, .f32⟩
  | 11 => ⟨S_, .f32⟩
  | 12 => ⟨S176x256x256, .f32⟩
  | 13 => ⟨S176x256x256, .f32⟩
  | 14 => ⟨S_, .f32⟩
  | 15 => ⟨S176x256x256, .f32⟩
  | 16 => ⟨S176x256x256, .f32⟩
  | 17 => ⟨S176x256x256x1, .f32⟩
  | 18 => ⟨S176x256x256, .f32⟩
  | 19 => ⟨S_, .f32⟩
  | 20 => ⟨S176x256x256, .f32⟩
  | 21 => ⟨S176x256x256, .f32⟩
  | 22 => ⟨S_, .f32⟩
  | 23 => ⟨S176x256x256, .f32⟩
  | 24 => ⟨S176x256x256, .f32⟩
  | 25 => ⟨S_, .f32⟩
  | 26 => ⟨S176x256x256, .f32⟩
  | 27 => ⟨S176x256x256, .f32⟩
  | 28 => ⟨S176x256x256, .f32⟩
  | 29 => ⟨S176x256x256, .f32⟩
  | 30 => ⟨S176x256x256, .f32⟩
  | 31 => ⟨S_, .f32⟩
  | 32 => ⟨S176x256x256, .f32⟩
  | 33 => ⟨S176x256x256, .f32⟩
  | 34 => ⟨S176x256x256, .f32⟩
  | 35 => ⟨S_, .f32⟩
  | 36 => ⟨S176x256x256, .f32⟩
  | 37 => ⟨S176x256x256, .f32⟩
  | 38 => ⟨S176x256x256, .f32⟩
  | 39 => ⟨S176x256x256, .f32⟩
  | 40 => ⟨S176x256x256, .f32⟩
  | 41 => ⟨S176x256x256, .f32⟩
  | 42 => ⟨S176x256x256, .i32⟩
  | 43 => ⟨S176x256x256, .i32⟩
  | 44 => ⟨S_, .i32⟩
  | 45 => ⟨S176x256x256, .i32⟩
  | 46 => ⟨S176x256x256, .i32⟩
  | 47 => ⟨S_, .i32⟩
  | 48 => ⟨S176x256x256, .i32⟩
  | 49 => ⟨S176x256x256, .i32⟩
  | 50 => ⟨S_, .i32⟩
  | 51 => ⟨S176x256x256, .i32⟩
  | 52 => ⟨S176x256x256, .i1⟩
  | 53 => ⟨S_, .i32⟩
  | 54 => ⟨S176x256x256, .i32⟩
  | 55 => ⟨S176x256x256, .i1⟩
  | 56 => ⟨S176x256x256, .i1⟩
  | 57 => ⟨S_, .i32⟩
  | 58 => ⟨S176x256x256, .i32⟩
  | 59 => ⟨S176x256x256, .i1⟩
  | 60 => ⟨S_, .i32⟩
  | 61 => ⟨S176x256x256, .i32⟩
  | 62 => ⟨S176x256x256, .i1⟩
  | 63 => ⟨S176x256x256, .i1⟩
  | 64 => ⟨S_, .i32⟩
  | 65 => ⟨S176x256x256, .i32⟩
  | 66 => ⟨S176x256x256, .i1⟩
  | 67 => ⟨S_, .i32⟩
  | 68 => ⟨S176x256x256, .i32⟩
  | 69 => ⟨S176x256x256, .i1⟩
  | 70 => ⟨S176x256x256, .i1⟩
  | 71 => ⟨S_, .i32⟩
  | 72 => ⟨S176x256x256, .i32⟩
  | 73 => ⟨S176x256x256, .i1⟩
  | 74 => ⟨S_, .i32⟩
  | 75 => ⟨S176x256x256, .i32⟩
  | 76 => ⟨S176x256x256, .i1⟩
  | 77 => ⟨S176x256x256, .i1⟩
  | 78 => ⟨S176, .i32⟩
  | 79 => ⟨S176x1x1, .i32⟩
  | 80 => ⟨S176x256x256, .i1⟩
  | 81 => ⟨S_, .i32⟩
  | 82 => ⟨S_, .i32⟩
  | 83 => ⟨S176x256x256, .i32⟩
  | 84 => ⟨S176x256x256, .i32⟩
  | 85 => ⟨S_, .i32⟩
  | 86 => ⟨S_, .i32⟩
  | 87 => ⟨S176x256x256, .i32⟩
  | 88 => ⟨S176x256x256, .i32⟩
  | 89 => ⟨S_, .i32⟩
  | 90 => ⟨S176x1x1, .i32⟩
  | 91 => ⟨S176x1x1, .i1⟩
  | 92 => ⟨S_, .i32⟩
  | 93 => ⟨S176x1x1, .i32⟩
  | 94 => ⟨S176x1x1, .i32⟩
  | 95 => ⟨S176x1x1, .i32⟩
  | 96 => ⟨S_, .i32⟩
  | 97 => ⟨S176x256x256, .i32⟩
  | 98 => ⟨S176x256x256, .i1⟩
  | 99 => ⟨S_, .i32⟩
  | 100 => ⟨S176x256x256, .i32⟩
  | 101 => ⟨S176x256x256, .i32⟩
  | 102 => ⟨S176x256x256, .i32⟩
  | 103 => ⟨S_, .i32⟩
  | 104 => ⟨S176x256x256, .i32⟩
  | 105 => ⟨S176x256x256, .i1⟩
  | 106 => ⟨S_, .i32⟩
  | 107 => ⟨S176x256x256, .i32⟩
  | 108 => ⟨S176x256x256, .i32⟩
  | 109 => ⟨S176x256x256, .i32⟩
  | 110 => ⟨S176x256x256, .i32⟩
  | 111 => ⟨S176x256x256x1, .i32⟩
  | 112 => ⟨S176x256x256x1, .i32⟩
  | 113 => ⟨S176x256x256x1, .i32⟩
  | 114 => ⟨S176x256x256x3, .i32⟩
  | 115 => ⟨S176x256x256x3, .f32⟩
  | 116 => ⟨S176x256x256x1, .i1⟩
  | 117 => ⟨S_, .f32⟩
  | 118 => ⟨S_, .f32⟩
  | 119 => ⟨S176x256x256x3, .i1⟩
  | 120 => ⟨S176x256x256x3, .f32⟩
  | 121 => ⟨S176x256x256x3, .f32⟩
  | 122 => ⟨S176x256x256, .i1⟩
  | 123 => ⟨S_, .i32⟩
  | 124 => ⟨S_, .i32⟩
  | 125 => ⟨S176x256x256, .i32⟩
  | 126 => ⟨S176x256x256, .i32⟩
  | 127 => ⟨S_, .i32⟩
  | _ => ⟨S1x256x256x3, .f32⟩

abbrev hbmTy0_1 (i : Nat) : BufTy := match i % 128 with
  | 0 => ⟨S_, .i32⟩
  | 1 => ⟨S176x256x256, .i32⟩
  | 2 => ⟨S176x256x256, .i32⟩
  | 3 => ⟨S_, .i32⟩
  | 4 => ⟨S176x1x1, .i32⟩
  | 5 => ⟨S176x1x1, .i1⟩
  | 6 => ⟨S_, .i32⟩
  | 7 => ⟨S176x1x1, .i32⟩
  | 8 => ⟨S176x1x1, .i32⟩
  | 9 => ⟨S176x1x1, .i32⟩
  | 10 => ⟨S_, .i32⟩
  | 11 => ⟨S176x256x256, .i32⟩
  | 12 => ⟨S176x256x256, .i1⟩
  | 13 => ⟨S_, .i32⟩
  | 14 => ⟨S176x256x256, .i32⟩
  | 15 => ⟨S176x256x256, .i32⟩
  | 16 => ⟨S176x256x256, .i32⟩
  | 17 => ⟨S_, .i32⟩
  | 18 => ⟨S176x256x256, .i32⟩
  | 19 => ⟨S176x256x256, .i1⟩
  | 20 => ⟨S_, .i32⟩
  | 21 => ⟨S176x256x256, .i32⟩
  | 22 => ⟨S176x256x256, .i32⟩
  | 23 => ⟨S176x256x256, .i32⟩
  | 24 => ⟨S176x256x256, .i32⟩
  | 25 => ⟨S176x256x256x1, .i32⟩
  | 26 => ⟨S176x256x256x1, .i32⟩
  | 27 => ⟨S176x256x256x1, .i32⟩
  | 28 => ⟨S176x256x256x3, .i32⟩
  | 29 => ⟨S176x256x256x3, .f32⟩
  | 30 => ⟨S176x256x256x1, .i1⟩
  | 31 => ⟨S_, .f32⟩
  | 32 => ⟨S_, .f32⟩
  | 33 => ⟨S176x256x256x3, .i1⟩
  | 34 => ⟨S176x256x256x3, .f32⟩
  | 35 => ⟨S176x256x256x3, .f32⟩
  | 36 => ⟨S176x256x256, .i1⟩
  | 37 => ⟨S_, .i32⟩
  | 38 => ⟨S_, .i32⟩
  | 39 => ⟨S176x256x256, .i32⟩
  | 40 => ⟨S176x256x256, .i32⟩
  | 41 => ⟨S_, .i32⟩
  | 42 => ⟨S_, .i32⟩
  | 43 => ⟨S176x256x256, .i32⟩
  | 44 => ⟨S176x256x256, .i32⟩
  | 45 => ⟨S_, .i32⟩
  | 46 => ⟨S176x1x1, .i32⟩
  | 47 => ⟨S176x1x1, .i1⟩
  | 48 => ⟨S_, .i32⟩
  | 49 => ⟨S176x1x1, .i32⟩
  | 50 => ⟨S176x1x1, .i32⟩
  | 51 => ⟨S176x1x1, .i32⟩
  | 52 => ⟨S_, .i32⟩
  | 53 => ⟨S176x256x256, .i32⟩
  | 54 => ⟨S176x256x256, .i1⟩
  | 55 => ⟨S_, .i32⟩
  | 56 => ⟨S176x256x256, .i32⟩
  | 57 => ⟨S176x256x256, .i32⟩
  | 58 => ⟨S176x256x256, .i32⟩
  | 59 => ⟨S_, .i32⟩
  | 60 => ⟨S176x256x256, .i32⟩
  | 61 => ⟨S176x256x256, .i1⟩
  | 62 => ⟨S_, .i32⟩
  | 63 => ⟨S176x256x256, .i32⟩
  | 64 => ⟨S176x256x256, .i32⟩
  | 65 => ⟨S176x256x256, .i32⟩
  | 66 => ⟨S176x256x256, .i32⟩
  | 67 => ⟨S176x256x256x1, .i32⟩
  | 68 => ⟨S176x256x256x1, .i32⟩
  | 69 => ⟨S176x256x256x1, .i32⟩
  | 70 => ⟨S176x256x256x3, .i32⟩
  | 71 => ⟨S176x256x256x3, .f32⟩
  | 72 => ⟨S176x256x256x1, .i1⟩
  | 73 => ⟨S_, .f32⟩
  | 74 => ⟨S_, .f32⟩
  | 75 => ⟨S176x256x256x3, .i1⟩
  | 76 => ⟨S176x256x256x3, .f32⟩
  | 77 => ⟨S176x256x256x3, .f32⟩
  | 78 => ⟨S176x256x256, .i1⟩
  | 79 => ⟨S_, .i32⟩
  | 80 => ⟨S_, .i32⟩
  | 81 => ⟨S176x256x256, .i32⟩
  | 82 => ⟨S176x256x256, .i32⟩
  | 83 => ⟨S_, .i32⟩
  | 84 => ⟨S_, .i32⟩
  | 85 => ⟨S176x256x256, .i32⟩
  | 86 => ⟨S176x256x256, .i32⟩
  | 87 => ⟨S_, .i32⟩
  | 88 => ⟨S176x1x1, .i32⟩
  | 89 => ⟨S176x1x1, .i1⟩
  | 90 => ⟨S_, .i32⟩
  | 91 => ⟨S176x1x1, .i32⟩
  | 92 => ⟨S176x1x1, .i32⟩
  | 93 => ⟨S176x1x1, .i32⟩
  | 94 => ⟨S_, .i32⟩
  | 95 => ⟨S176x256x256, .i32⟩
  | 96 => ⟨S176x256x256, .i1⟩
  | 97 => ⟨S_, .i32⟩
  | 98 => ⟨S176x256x256, .i32⟩
  | 99 => ⟨S176x256x256, .i32⟩
  | 100 => ⟨S176x256x256, .i32⟩
  | 101 => ⟨S_, .i32⟩
  | 102 => ⟨S176x256x256, .i32⟩
  | 103 => ⟨S176x256x256, .i1⟩
  | 104 => ⟨S_, .i32⟩
  | 105 => ⟨S176x256x256, .i32⟩
  | 106 => ⟨S176x256x256, .i32⟩
  | 107 => ⟨S176x256x256, .i32⟩
  | 108 => ⟨S176x256x256, .i32⟩
  | 109 => ⟨S176x256x256x1, .i32⟩
  | 110 => ⟨S176x256x256x1, .i32⟩
  | 111 => ⟨S176x256x256x1, .i32⟩
  | 112 => ⟨S176x256x256x3, .i32⟩
  | 113 => ⟨S176x256x256x3, .f32⟩
  | 114 => ⟨S176x256x256x1, .i1⟩
  | 115 => ⟨S_, .f32⟩
  | 116 => ⟨S_, .f32⟩
  | 117 => ⟨S176x256x256x3, .i1⟩
  | 118 => ⟨S176x256x256x3, .f32⟩
  | 119 => ⟨S176x256x256x3, .f32⟩
  | 120 => ⟨S176x256x256x1, .f32⟩
  | 121 => ⟨S176x256x256x3, .f32⟩
  | 122 => ⟨S176x256x256x3, .f32⟩
  | 123 => ⟨S176x256x256x1, .f32⟩
  | 124 => ⟨S176x256x256x3, .f32⟩
  | 125 => ⟨S176x256x256x3, .f32⟩
  | 126 => ⟨S176x256x256x3, .f32⟩
  | 127 => ⟨S176x256x256x1, .f32⟩
  | _ => ⟨S1x256x256x3, .f32⟩

abbrev hbmTy0_2 (i : Nat) : BufTy := match i % 128 with
  | 0 => ⟨S176x256x256x3, .f32⟩
  | 1 => ⟨S176x256x256x3, .f32⟩
  | 2 => ⟨S176x256x256x3, .f32⟩
  | 3 => ⟨S176x256x256x1, .f32⟩
  | 4 => ⟨S176x256x256x3, .f32⟩
  | 5 => ⟨S176x256x256x3, .f32⟩
  | 6 => ⟨S176x256x256x3, .f32⟩
  | 7 => ⟨S16x11x256x256x3, .f32⟩
  | _ => ⟨S1x256x256x3, .f32⟩

abbrev hbmTy (i : Nat) : BufTy := match i / 128 with
  | 0 => hbmTy0_0 i
  | 1 => hbmTy0_1 i
  | 2 => hbmTy0_2 i
  | _ => ⟨S1x256x256x3, .f32⟩

abbrev bufTy : (tb : Table) → Fin (tcTables nBuf tb) → BufTy
  | .hbm, ⟨i, _⟩ => hbmTy i
  | _, _ => ⟨S1x256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_12 : Ref sig .tc := ⟨.hbm, 64, rfl⟩
abbrev main_v48 : Ref sig .tc := ⟨.hbm, 65, rfl⟩
abbrev main_v49 : Ref sig .tc := ⟨.hbm, 66, rfl⟩
abbrev main_c_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_14 : Ref sig .tc := ⟨.hbm, 71, rfl⟩
abbrev main_v53 : Ref sig .tc := ⟨.hbm, 72, rfl⟩
abbrev main_v54 : Ref sig .tc := ⟨.hbm, 73, rfl⟩
abbrev main_c_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_16 : Ref sig .tc := ⟨.hbm, 81, rfl⟩
abbrev main_call0_v0 : Ref sig .tc := ⟨.hbm, 82, rfl⟩
abbrev main_call0_v1 : Ref sig .tc := ⟨.hbm, 83, rfl⟩
abbrev main_v61 : Ref sig .tc := ⟨.hbm, 84, rfl⟩
abbrev main_c_17 : Ref sig .tc := ⟨.hbm, 85, rfl⟩
abbrev main_call1_v0 : Ref sig .tc := ⟨.hbm, 86, rfl⟩
abbrev main_call1_v1 : Ref sig .tc := ⟨.hbm, 87, rfl⟩
abbrev main_v62 : Ref sig .tc := ⟨.hbm, 88, rfl⟩
abbrev main_c_18 : Ref sig .tc := ⟨.hbm, 89, rfl⟩
abbrev main_v63 : Ref sig .tc := ⟨.hbm, 90, rfl⟩
abbrev main_v64 : Ref sig .tc := ⟨.hbm, 91, rfl⟩
abbrev main_c_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_20 : Ref sig .tc := ⟨.hbm, 96, rfl⟩
abbrev main_v68 : Ref sig .tc := ⟨.hbm, 97, rfl⟩
abbrev main_v69 : Ref sig .tc := ⟨.hbm, 98, rfl⟩
abbrev main_c_21 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_22 : Ref sig .tc := ⟨.hbm, 103, rfl⟩
abbrev main_v73 : Ref sig .tc := ⟨.hbm, 104, rfl⟩
abbrev main_v74 : Ref sig .tc := ⟨.hbm, 105, rfl⟩
abbrev main_c_23 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_24 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v85 : Ref sig .tc := ⟨.hbm, 121, rfl⟩
abbrev main_v86 : Ref sig .tc := ⟨.hbm, 122, rfl⟩
abbrev main_c_25 : Ref sig .tc := ⟨.hbm, 123, rfl⟩
abbrev main_call3_v0 : Ref sig .tc := ⟨.hbm, 124, rfl⟩
abbrev main_call3_v1 : Ref sig .tc := ⟨.hbm, 125, rfl⟩
abbrev main_v87 : Ref sig .tc := ⟨.hbm, 126, rfl⟩
abbrev main_c_26 : Ref sig .tc := ⟨.hbm, 127, rfl⟩
abbrev main_call4_v0 : Ref sig .tc := ⟨.hbm, 128, rfl⟩
abbrev main_call4_v1 : Ref sig .tc := ⟨.hbm, 129, rfl⟩
abbrev main_v88 : Ref sig .tc := ⟨.hbm, 130, rfl⟩
abbrev main_c_27 : Ref sig .tc := ⟨.hbm, 131, rfl⟩
abbrev main_v89 : Ref sig .tc := ⟨.hbm, 132, rfl⟩
abbrev main_v90 : Ref sig .tc := ⟨.hbm, 133, rfl⟩
abbrev main_c_28 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_29 : Ref sig .tc := ⟨.hbm, 138, rfl⟩
abbrev main_v94 : Ref sig .tc := ⟨.hbm, 139, rfl⟩
abbrev main_v95 : Ref sig .tc := ⟨.hbm, 140, rfl⟩
abbrev main_c_30 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_31 : Ref sig .tc := ⟨.hbm, 145, rfl⟩
abbrev main_v99 : Ref sig .tc := ⟨.hbm, 146, rfl⟩
abbrev main_v100 : Ref sig .tc := ⟨.hbm, 147, rfl⟩
abbrev main_c_32 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_33 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_v111 : Ref sig .tc := ⟨.hbm, 163, rfl⟩
abbrev main_v112 : Ref sig .tc := ⟨.hbm, 164, rfl⟩
abbrev main_c_34 : Ref sig .tc := ⟨.hbm, 165, rfl⟩
abbrev main_call6_v0 : Ref sig .tc := ⟨.hbm, 166, rfl⟩
abbrev main_call6_v1 : Ref sig .tc := ⟨.hbm, 167, rfl⟩
abbrev main_v113 : Ref sig .tc := ⟨.hbm, 168, rfl⟩
abbrev main_c_35 : Ref sig .tc := ⟨.hbm, 169, rfl⟩
abbrev main_call7_v0 : Ref sig .tc := ⟨.hbm, 170, rfl⟩
abbrev main_call7_v1 : Ref sig .tc := ⟨.hbm, 171, rfl⟩
abbrev main_v114 : Ref sig .tc := ⟨.hbm, 172, rfl⟩
abbrev main_c_36 : Ref sig .tc := ⟨.hbm, 173, rfl⟩
abbrev main_v115 : Ref sig .tc := ⟨.hbm, 174, rfl⟩
abbrev main_v116 : Ref sig .tc := ⟨.hbm, 175, rfl⟩
abbrev main_c_37 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_c_38 : Ref sig .tc := ⟨.hbm, 180, rfl⟩
abbrev main_v120 : Ref sig .tc := ⟨.hbm, 181, rfl⟩
abbrev main_v121 : Ref sig .tc := ⟨.hbm, 182, rfl⟩
abbrev main_c_39 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_c_40 : Ref sig .tc := ⟨.hbm, 187, rfl⟩
abbrev main_v125 : Ref sig .tc := ⟨.hbm, 188, rfl⟩
abbrev main_v126 : Ref sig .tc := ⟨.hbm, 189, rfl⟩
abbrev main_c_41 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_42 : Ref sig .tc := ⟨.hbm, 201, rfl⟩
abbrev main_call8_v0 : Ref sig .tc := ⟨.hbm, 202, rfl⟩
abbrev main_call8_v1 : Ref sig .tc := ⟨.hbm, 203, rfl⟩
abbrev main_call8_v2 : Ref sig .tc := ⟨.hbm, 204, rfl⟩
abbrev main_v137 : Ref sig .tc := ⟨.hbm, 205, rfl⟩
abbrev main_v138 : Ref sig .tc := ⟨.hbm, 206, rfl⟩
abbrev main_c_43 : Ref sig .tc := ⟨.hbm, 207, rfl⟩
abbrev main_call9_v0 : Ref sig .tc := ⟨.hbm, 208, rfl⟩
abbrev main_call9_v1 : Ref sig .tc := ⟨.hbm, 209, rfl⟩
abbrev main_v139 : Ref sig .tc := ⟨.hbm, 210, rfl⟩
abbrev main_c_44 : Ref sig .tc := ⟨.hbm, 211, rfl⟩
abbrev main_call10_v0 : Ref sig .tc := ⟨.hbm, 212, rfl⟩
abbrev main_call10_v1 : Ref sig .tc := ⟨.hbm, 213, rfl⟩
abbrev main_v140 : Ref sig .tc := ⟨.hbm, 214, rfl⟩
abbrev main_c_45 : Ref sig .tc := ⟨.hbm, 215, rfl⟩
abbrev main_v141 : Ref sig .tc := ⟨.hbm, 216, rfl⟩
abbrev main_v142 : Ref sig .tc := ⟨.hbm, 217, rfl⟩
abbrev main_c_46 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_c_47 : Ref sig .tc := ⟨.hbm, 222, rfl⟩
abbrev main_v146 : Ref sig .tc := ⟨.hbm, 223, rfl⟩
abbrev main_v147 : Ref sig .tc := ⟨.hbm, 224, rfl⟩
abbrev main_c_48 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_c_49 : Ref sig .tc := ⟨.hbm, 229, rfl⟩
abbrev main_v151 : Ref sig .tc := ⟨.hbm, 230, rfl⟩
abbrev main_v152 : Ref sig .tc := ⟨.hbm, 231, rfl⟩
abbrev main_c_50 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_51 : Ref sig .tc := ⟨.hbm, 243, rfl⟩
abbrev main_call11_v0 : Ref sig .tc := ⟨.hbm, 244, rfl⟩
abbrev main_call11_v1 : Ref sig .tc := ⟨.hbm, 245, rfl⟩
abbrev main_call11_v2 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩

abbrev nD : Nat := 1
abbrev τ : Topo := Topo.v7x

variable {F : FTy → Type} [FloatOps F]

class Facts₀ : Prop where
  bcast_S1x256x256x3_S1x1x256x256x3_0_2_3_4 : S1x256x256x3.BroadcastsInDim S1x1x256x256x3 (![0, 2, 3, 4] : Fin 4 → Fin S1x1x256x256x3.rank)
  bcast_S1x1x256x256x3_S16x11x256x256x3_0_1_2_3_4 : S1x1x256x256x3.BroadcastsInDim S16x11x256x256x3 (![0, 1, 2, 3, 4] : Fin 5 → Fin S16x11x256x256x3.rank)
  shapeCasts_S16x11x256x256x3_S176x256x256x3 : S16x11x256x256x3.ShapeCasts S176x256x256x3
  shapeCasts_S16x11x256x256x2_S176x256x256x2 : S16x11x256x256x2.ShapeCasts S176x256x256x2
  slices_S176x256x256x2_S176x256x256x1_0_0_0_0 : S176x256x256x2.Slices ![0, 0, 0, 0] S176x256x256x1
  shapeCasts_S176x256x256x1_S176x256x256 : S176x256x256x1.ShapeCasts S176x256x256
  bcast_S_S176x256x256 : S_.BroadcastsInDim S176x256x256 (![] : Fin 0 → Fin S176x256x256.rank)
  slices_S176x256x256x2_S176x256x256x1_0_0_0_1 : S176x256x256x2.Slices ![0, 0, 0, 1] S176x256x256x1
  bcast_S176_S176x1x1_0 : S176.BroadcastsInDim S176x1x1 (![0] : Fin 1 → Fin S176x1x1.rank)
  bcast_S_S176x1x1 : S_.BroadcastsInDim S176x1x1 (![] : Fin 0 → Fin S176x1x1.rank)
  bcast_S176x1x1_S176x256x256_0_1_2 : S176x1x1.BroadcastsInDim S176x256x256 (![0, 1, 2] : Fin 3 → Fin S176x256x256.rank)
  bcast_S176x256x256_S176x256x256x1_0_1_2 : S176x256x256.BroadcastsInDim S176x256x256x1 (![0, 1, 2] : Fin 3 → Fin S176x256x256x1.rank)
  concatenates_S176x256x256x1_S176x256x256x1_S176x256x256x1_S176x256x256x3_d3 : Shape.Concatenates [S176x256x256x1, S176x256x256x1, S176x256x256x1] S176x256x256x3 3
  bcast_S176x256x256x1_S176x256x256x3_0_1_2_3 : S176x256x256x1.BroadcastsInDim S176x256x256x3 (![0, 1, 2, 3] : Fin 4 → Fin S176x256x256x3.rank)
  bcast_S_S176x256x256x3 : S_.BroadcastsInDim S176x256x256x3 (![] : Fin 0 → Fin S176x256x256x3.rank)
  shapeCasts_S176x256x256x3_S16x11x256x256x3 : S176x256x256x3.ShapeCasts S16x11x256x256x3
  gather_S176x256x256x3_S176x256x256x3_S176x256x256x3_3_012_n_n_012_3_1113_wf : GatherDims.WF S176x256x256x3 S176x256x256x3 S176x256x256x3 [3] [0, 1, 2] [] [0, 1, 2] [] 3 ![1, 1, 1, 3]

variable [Facts₀]

def gather_S176x256x256x3_S176x256x256x3_S176x256x256x3_3_012_n_n_012_3_1113 : GatherDims S176x256x256x3 S176x256x256x3 S176x256x256x3 where
  offsetDims := [3]
  collapsedSliceDims := [0, 1, 2]
  operandBatchingDims := []
  startIndicesBatchingDims := []
  startIndexMap := [0, 1, 2]
  indexVectorDim := 3
  sliceSizes := ![1, 1, 1, 3]
  wf := gather_S176x256x256x3_S176x256x256x3_S176x256x256x3_3_012_n_n_012_3_1113_wf

class Facts : Prop extends Facts₀ where

variable [Facts]
-- ==== Proof.KFrame.lean ====
/-
  The blend kernel's program keeps its two argument arrays, and what its run leaves in every array.

  The program is a line of whole-array operations (the sampling coordinates, their floors, the four corner masks, the
  four masked corner gathers and their concatenation along the channel axis), then one launch of the blend over 88
  blocks of two images each, then a reshape of the launch's result. No whole-array operation writes an argument array,
  so both are found as launched when the launch starts and when the program ends. At every block the blend reads its
  two input blocks whole and overwrites its output block whole with one value computed from them, so the output array
  ends as the blocks' values laid side by side.
-/
import proofs.«172076_j29085518528593_1_alg».proof.Proof.Gen.KernelIdeal.Launch
import proofs.«172076_j29085518528593_1_alg».proof.Proof.Gen.KernelIdeal.Skeleton
import proofs.«172076_j29085518528593_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Blend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- The buffers' contents on core `c` when the launch starts: the whole-array operations before it, run in order from
    the launch memory. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the operations before the launch, the launch, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-- The reshape after the launch touches only the launch's arrays and buffers the launch does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No operation before the launch writes the image argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No operation before the launch writes the sampling-grid argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the launch does not write the image argument either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the sampling-grid argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The sampling-grid window's buffer holds its block when the blend runs at a point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the corner-values window's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- From a run that ends with every buffer the launch does not stage as the reshape leaves it: both argument arrays
    end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The blend at one point -/

/-- The output buffer, whole. -/
abbrev rOut : Rect S2x256x256x3 := Rect.unit (s := S2x256x256x3) ![0, 0, 0, 0] S2x256x256x3.size inb_S2x256x256x3_S2x256x256x3_0_0_0_0
/-- The sampling-grid buffer, whole. -/
abbrev rGrid : Rect S2x256x256x2 := Rect.unit (s := S2x256x256x2) ![0, 0, 0, 0] S2x256x256x2.size inb_S2x256x256x2_S2x256x256x2_0_0_0_0
/-- The corner-values buffer, whole. -/
abbrev rCorners : Rect S2x256x256x12 := Rect.unit (s := S2x256x256x12) ![0, 0, 0, 0] S2x256x256x12.size inb_S2x256x256x12_S2x256x256x12_0_0_0_0

/-- The blended value of a grid block and a corner-values block: the four bilinear weights from the grid block, each
    times its corner's three channels, summed north-west, north-east, south-west, south-east. -/
def blend (g : Vec F S2x256x256x2 .f32) (cv : Vec F S2x256x256x12 .f32) : FVec F S2x256x256x3 .f32 :=
  k0_pay1 (k0_pay6 g) (k0_pay7 g) (k0_pay9 cv) (k0_pay10 cv) (k0_pay11 g cv)

/-- What the output buffer holds after the blend ran on input blocks `x0`, `x1`: its one whole store. -/
def out0_2 (x0 : Vec F S2x256x256x2 .f32) (x1 : Vec F S2x256x256x12 .f32) : Vec F S2x256x256x3 .f32 :=
  View.canon [⟨rOut, blend (View.ld x0 rGrid) (View.ld x1 rCorners)⟩]

/-- The one store covers the buffer. -/
theorem cover0_2 (p0 : Vec F S2x256x256x3 .f32) (y : S2x256x256x3.Idx) :
    ∃ pc ∈ ([⟨rOut, p0⟩] : List (View.Piece (Elt F) S2x256x256x3 .f32)), y ∈ pc.1.set :=
  View.cover_of_tiled [⟨rOut, p0⟩] S2x256x256x3.size (by rfl) y

set_option maxHeartbeats 1000000 in
/-- The blend on whole buffers, the inputs' at contents `x0`, `x1` and the output's at anything, runs and leaves the
    inputs as they were and the output at `out0_2 x0 x1`. -/
theorem sound_kernel (c : Dev nD) (E : Set ℕ) (i : grid0.Coords) (arg1 : Memref sig .tc .vmem S2x256x256x2 .f32) (harg1 : arg1.IsWhole) (arg2 : Memref sig .tc .vmem S2x256x256x12 .f32) (harg2 : arg2.IsWhole) (arg3 : Memref sig .tc .vmem S2x256x256x3 .f32) (harg3 : arg3.IsWhole)
    (x0 : Vec F S2x256x256x2 .f32) (x1 : Vec F S2x256x256x12 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__blend_kernel i arg1 harg1 arg2 harg2 arg3 harg3) K := by
  simp only [cc0__blend_kernel_eq_skeleton]; unfold cc0__blend_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The launch's proof data -/

/-- On core `c`: the arrays as the launch finds them; after the blend at point `t` each input buffer at its block and
    the output buffer at the blend of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The blend at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, with each of the launch's
    arrays at what its blocks' buffers were left at and every other buffer as the reshape after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Blend

end
-- ==== Proof.BFrame.lean ====
/-
  The blend kernel's program keeps its two argument arrays, and what its run leaves in every array.

  The program is a line of whole-array operations (the sampling coordinates, their floors, the four corner masks, the
  four masked corner gathers and their concatenation along the channel axis), then one launch of the blend over 88
  blocks of two images each, then a reshape of the launch's result. No whole-array operation writes an argument array,
  so both are found as launched when the launch starts and when the program ends. At every block the blend reads its
  two input blocks whole and overwrites its output block whole with one value computed from them, so the output array
  ends as the blocks' values laid side by side.
-/
import proofs.«172076_j29085518528593_1_alg».proof.Proof.Gen.Kernel.Launch
import proofs.«172076_j29085518528593_1_alg».proof.Proof.Gen.Kernel.Skeleton
import proofs.«172076_j29085518528593_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Blend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- The buffers' contents on core `c` when the launch starts: the whole-array operations before it, run in order from
    the launch memory. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the operations before the launch, the launch, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-- The reshape after the launch touches only the launch's arrays and buffers the launch does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No operation before the launch writes the image argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No operation before the launch writes the sampling-grid argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the launch does not write the image argument either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the sampling-grid argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The sampling-grid window's buffer holds its block when the blend runs at a point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the corner-values window's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- From a run that ends with every buffer the launch does not stage as the reshape leaves it: both argument arrays
    end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The blend at one point -/

/-- The output buffer, whole. -/
abbrev rOut : Rect S2x256x256x3 := Rect.unit (s := S2x256x256x3) ![0, 0, 0, 0] S2x256x256x3.size inb_S2x256x256x3_S2x256x256x3_0_0_0_0
/-- The sampling-grid buffer, whole. -/
abbrev rGrid : Rect S2x256x256x2 := Rect.unit (s := S2x256x256x2) ![0, 0, 0, 0] S2x256x256x2.size inb_S2x256x256x2_S2x256x256x2_0_0_0_0
/-- The corner-values buffer, whole. -/
abbrev rCorners : Rect S2x256x256x12 := Rect.unit (s := S2x256x256x12) ![0, 0, 0, 0] S2x256x256x12.size inb_S2x256x256x12_S2x256x256x12_0_0_0_0

/-- The blended value of a grid block and a corner-values block: the four bilinear weights from the grid block, each
    times its corner's three channels, summed north-west, north-east, south-west, south-east. -/
def blend (g : Vec F S2x256x256x2 .f32) (cv : Vec F S2x256x256x12 .f32) : FVec F S2x256x256x3 .f32 :=
  k0_pay1 (k0_pay6 g) (k0_pay7 g) (k0_pay9 cv) (k0_pay10 cv) (k0_pay11 g cv)

/-- What the output buffer holds after the blend ran on input blocks `x0`, `x1`: its one whole store. -/
def out0_2 (x0 : Vec F S2x256x256x2 .f32) (x1 : Vec F S2x256x256x12 .f32) : Vec F S2x256x256x3 .f32 :=
  View.canon [⟨rOut, blend (View.ld x0 rGrid) (View.ld x1 rCorners)⟩]

/-- The one store covers the buffer. -/
theorem cover0_2 (p0 : Vec F S2x256x256x3 .f32) (y : S2x256x256x3.Idx) :
    ∃ pc ∈ ([⟨rOut, p0⟩] : List (View.Piece (Elt F) S2x256x256x3 .f32)), y ∈ pc.1.set :=
  View.cover_of_tiled [⟨rOut, p0⟩] S2x256x256x3.size (by rfl) y

set_option maxHeartbeats 1000000 in
/-- The blend on whole buffers, the inputs' at contents `x0`, `x1` and the output's at anything, runs and leaves the
    inputs as they were and the output at `out0_2 x0 x1`. -/
theorem sound_kernel (c : Dev nD) (E : Set ℕ) (i : grid0.Coords) (arg1 : Memref sig .tc .vmem S2x256x256x2 .f32) (harg1 : arg1.IsWhole) (arg2 : Memref sig .tc .vmem S2x256x256x12 .f32) (harg2 : arg2.IsWhole) (arg3 : Memref sig .tc .vmem S2x256x256x3 .f32) (harg3 : arg3.IsWhole)
    (x0 : Vec F S2x256x256x2 .f32) (x1 : Vec F S2x256x256x12 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__blend_kernel i arg1 harg1 arg2 harg2 arg3 harg3) K := by
  simp only [cc0__blend_kernel_eq_skeleton]; unfold cc0__blend_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The launch's proof data -/

/-- On core `c`: the arrays as the launch finds them; after the blend at point `t` each input buffer at its block and
    the output buffer at the blend of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The blend at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, with each of the launch's
    arrays at what its blocks' buffers were left at and every other buffer as the reshape after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Blend

end
-- ==== Proof.KBlocks.lean ====
/-
  The launch's blocks as pieces of its arrays: block `t` of each of the three arrays is the two images `2 t` and
  `2 t + 1`, whole, so an entry of a block is the array's entry at image `2 t + j`, and the 88 output blocks cover the
  output array, image `n` lying in block `n / 2`.
-/
import proofs.«172076_j29085518528593_1_alg».proof.Proof.KFrame
import Idealize.ShloMosaic.Lib.Pipeline.Value
import Idealize.ShloMosaic.Lib.ValueIdx

set_option maxRecDepth 16384

noncomputable section

namespace Cert.KernelIdeal.Blend

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

theorem hz4 : (![0, 0, 0, 0] : Fin 4 → Nat) = fun _ => 0 := funext fun a => by fin_cases a <;> rfl

/-- Window 0's block at point `t` starts at image `2 t` and at zero on the other three axes. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
/-- Window 1's block at point `t` starts at image `2 t` and at zero on the other three axes. -/
theorem idx1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)
/-- Window 2's block at point `t` starts at image `2 t` and at zero on the other three axes. -/
theorem idx2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

/-- Window 0's block at point `t`, at an index, is its array at image `2 t + ` the block's image and the same row, column
    and channel. -/
theorem iblk0_apply (c : Dev nD) (t : Fin cfg0.N) (y : S2x256x256x2.Idx) (k : S176x256x256x2.Idx)
    (h0 : (k 0).val = 2 * t.val + (y 0).val) (h1 : (k 1).val = (y 1).val) (h2 : (k 2).val = (y 2).val) (h3 : (k 3).val = (y 3).val) :
    (iblk m c 0 t : Vec F S2x256x256x2 .f32) y = (V m c main_v1 : S176x256x256x2.Idx → Elt F .f32) k := by
  obtain ⟨e0, e1, e2, e3⟩ := idx0 t
  unfold iblk
  rw [View.read_apply]
  show V m c main_v1 _ = V m c main_v1 _
  congr 1
  funext a
  apply Fin.ext
  match a with
  | ⟨0, _⟩ => show win0_0.index t (0 : Fin 4) * 2 + 1 * (y 0).val = (k 0).val; rw [e0, h0]; omega
  | ⟨1, _⟩ => show win0_0.index t (1 : Fin 4) * 256 + 1 * (y 1).val = (k 1).val; rw [e1, h1]; omega
  | ⟨2, _⟩ => show win0_0.index t (2 : Fin 4) * 256 + 1 * (y 2).val = (k 2).val; rw [e2, h2]; omega
  | ⟨3, _⟩ => show win0_0.index t (3 : Fin 4) * 2 + 1 * (y 3).val = (k 3).val; rw [e3, h3]; omega

/-- Window 1's block at point `t`, at an index, is its array at image `2 t + ` the block's image and the same row, column
    and channel. -/
theorem iblk1_apply (c : Dev nD) (t : Fin cfg0.N) (y : S2x256x256x12.Idx) (k : S176x256x256x12.Idx)
    (h0 : (k 0).val = 2 * t.val + (y 0).val) (h1 : (k 1).val = (y 1).val) (h2 : (k 2).val = (y 2).val) (h3 : (k 3).val = (y 3).val) :
    (iblk m c 1 t : Vec F S2x256x256x12 .f32) y = (V m c main_v122 : S176x256x256x12.Idx → Elt F .f32) k := by
  obtain ⟨e0, e1, e2, e3⟩ := idx1 t
  unfold iblk
  rw [View.read_apply]
  show V m c main_v122 _ = V m c main_v122 _
  congr 1
  funext a
  apply Fin.ext
  match a with
  | ⟨0, _⟩ => show win0_1.index t (0 : Fin 4) * 2 + 1 * (y 0).val = (k 0).val; rw [e0, h0]; omega
  | ⟨1, _⟩ => show win0_1.index t (1 : Fin 4) * 256 + 1 * (y 1).val = (k 1).val; rw [e1, h1]; omega
  | ⟨2, _⟩ => show win0_1.index t (2 : Fin 4) * 256 + 1 * (y 2).val = (k 2).val; rw [e2, h2]; omega
  | ⟨3, _⟩ => show win0_1.index t (3 : Fin 4) * 12 + 1 * (y 3).val = (k 3).val; rw [e3, h3]; omega

/-- Where the output block at point `t` puts its entry `y` in the output array. -/
theorem emb_out (t : Fin cfg0.N) (y : S2x256x256x3.Idx) (k : S176x256x256x3.Idx)
    (h0 : (k 0).val = 2 * t.val + (y 0).val) (h1 : (k 1).val = (y 1).val) (h2 : (k 2).val = (y 2).val) (h3 : (k 3).val = (y 3).val) :
    ((cfg0.win 2).blk t).view.emb y = k := by
  obtain ⟨e0, e1, e2, e3⟩ := idx2 t
  funext a
  apply Fin.ext
  match a with
  | ⟨0, _⟩ => show win0_2.index t (0 : Fin 4) * 2 + 1 * (y 0).val = (k 0).val; rw [e0, h0]; omega
  | ⟨1, _⟩ => show win0_2.index t (1 : Fin 4) * 256 + 1 * (y 1).val = (k 1).val; rw [e1, h1]; omega
  | ⟨2, _⟩ => show win0_2.index t (2 : Fin 4) * 256 + 1 * (y 2).val = (k 2).val; rw [e2, h2]; omega
  | ⟨3, _⟩ => show win0_2.index t (3 : Fin 4) * 3 + 1 * (y 3).val = (k 3).val; rw [e3, h3]; omega

/-- An index of the output array is in point `t`'s block iff each coordinate is in the block's range on its axis. -/
theorem mem_blk (t : Fin cfg0.N) (i : S176x256x256x3.Idx) :
    i ∈ ((cfg0.win 2).blk t).view.set ↔ ∀ a : Fin 4, win0_2.index t a * S2x256x256x3.size a ≤ (i a).val ∧ (i a).val < win0_2.index t a * S2x256x256x3.size a + S2x256x256x3.size a := by
  show i ∈ ((View.whole main_v123).slice (win0_2.rect t)).set ↔ _
  rw [View.set_slice_whole, Rect.mem_set_unit]
  exact Iff.rfl

/-- Every index of the output array is in the block of the point that holds its image. -/
theorem cover (i : S176x256x256x3.Idx) : ∃ t : Fin cfg0.N, (cfg0.win 2).flush t = true ∧ i ∈ ((cfg0.win 2).blk t).view.set := by
  have hi0 : (i 0).val < 176 := (i 0).isLt
  have hi1 : (i 1).val < 256 := (i 1).isLt
  have hi2 : (i 2).val < 256 := (i 2).isLt
  have hi3 : (i 3).val < 3 := (i 3).isLt
  have hN : cfg0.N = 88 := N_0
  obtain ⟨t, ht⟩ : ∃ t : Fin cfg0.N, t.val = (i 0).val / 2 := ⟨⟨(i 0).val / 2, by rw [hN]; omega⟩, rfl⟩
  obtain ⟨e0, e1, e2, e3⟩ := idx2 t
  refine ⟨t, flush0_2 t, ?_⟩
  rw [mem_blk]
  intro a
  match a with
  | ⟨0, _⟩ => show win0_2.index t (0 : Fin 4) * 2 ≤ (i 0).val ∧ (i 0).val < win0_2.index t (0 : Fin 4) * 2 + 2; rw [e0, ht]; omega
  | ⟨1, _⟩ => show win0_2.index t (1 : Fin 4) * 256 ≤ (i 1).val ∧ (i 1).val < win0_2.index t (1 : Fin 4) * 256 + 256; rw [e1]; omega
  | ⟨2, _⟩ => show win0_2.index t (2 : Fin 4) * 256 ≤ (i 2).val ∧ (i 2).val < win0_2.index t (2 : Fin 4) * 256 + 256; rw [e2]; omega
  | ⟨3, _⟩ => show win0_2.index t (3 : Fin 4) * 3 ≤ (i 3).val ∧ (i 3).val < win0_2.index t (3 : Fin 4) * 3 + 3; rw [e3]; omega

end Cert.KernelIdeal.Blend

end
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.KHost.lean ====
/-
  What the whole-array operations before the launch leave in the launch's two input arrays.

  The sampling-grid array is the grid argument reshaped to 176 images. The corner-values array is the concatenation,
  along the channel axis, of the four masked corner gathers. Each corner's mask and its two index arrays are computed
  from the grid by the same operations, in the same order, as the reference computes them, so they are the reference's
  stages of the grid argument; only the gather itself differs (the image gathered by row and column, where the
  reference gathers its batch-broadcast image by batch entry, row and column).
-/
import proofs.«172076_j29085518528593_1_alg».proof.Proof.KFrame
import proofs.«172076_j29085518528593_1_alg».proof.Proof.LibHostStretch
import proofs.«172076_j29085518528593_1_alg».proof.Proof.Gen.ReferenceIdeal.Read

set_option maxRecDepth 16384

noncomputable section

namespace Cert.KernelIdeal.Blend

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The image argument as launched on core `c`. -/
abbrev img (c : Dev nD) : (⟨S1x256x256x3, .f32⟩ : BufTy).Contents (Elt F) := m ((c.tc : Thread nD τ).loc main_arg0)
/-- The sampling-grid argument as launched on core `c`. -/
abbrev grd (c : Dev nD) : (⟨S16x11x256x256x2, .f32⟩ : BufTy).Contents (Elt F) := m ((c.tc : Thread nD τ).loc main_arg1)

/-- The buffers' contents before the last whole-array operation (the concatenation of the four corners). -/
def W0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) (fun b => m (c, b))

/-- The contents at the launch are the concatenation run from the contents before it. -/
theorem V0_split (c : Dev nD) : V0 m c = StableHlo.after hostOps0_24 (W0 m c) := by
  unfold W0
  rw [← Cert.GraphConv.after_append]
  refine congrArg (fun l => StableHlo.after l (fun b => m (c, b))) ?_
  simp only [List.flatten_cons, List.flatten_nil, List.append_nil, List.append_assoc]

/-- The sampling-grid array at the launch is what it was before the concatenation. -/
theorem V_v1 (c : Dev nD) : V m c main_v1 = W0 m c (Proc.devRef .tc main_v1) := by
  show V0 m c (Proc.devRef .tc main_v1) = _
  rw [V0_split]
  simp only [hostOps0_24, StableHlo.after_cons, StableHlo.after_nil]
  rw [StableHlo.nary_result_ne]
  decide

/-- The corner-values array at the launch is the four corners side by side along the channel axis. -/
theorem V_v122 (c : Dev nD) : V m c main_v122 = concatenate S176x256x256x12 3
      [⟨S176x256x256x3, W0 m c (Proc.devRef .tc main_v64)⟩, ⟨S176x256x256x3, W0 m c (Proc.devRef .tc main_v83)⟩,
       ⟨S176x256x256x3, W0 m c (Proc.devRef .tc main_v102)⟩, ⟨S176x256x256x3, W0 m c (Proc.devRef .tc main_v121)⟩]
      concatenates_S176x256x256x3_S176x256x256x3_S176x256x256x3_S176x256x256x3_S176x256x256x12_d3 := by
  show V0 m c (Proc.devRef .tc main_v122) = _
  rw [V0_split]
  simp only [hostOps0_24, StableHlo.after_cons, StableHlo.after_nil]
  rw [StableHlo.nary4_result]
  rfl

set_option maxHeartbeats 40000000 in
/-- The sampling-grid array is the grid argument reshaped to 176 images: the reference's reshaped grid. -/
theorem W_v1 (c : Dev nD) : W0 m c (Proc.devRef .tc main_v1) = Cert.ReferenceIdeal.Read.val_main_v3 (F := F) (grd m c) := by
  unfold W0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append]
  after_results_simp
  rfl

set_option maxHeartbeats 40000000 in
/-- The north-west corner: masked by west-and-north, gathered at the masked north row and west column. -/
theorem W_v64 (c : Dev nD) : W0 m c (Proc.devRef .tc main_v64) = select (Cert.ReferenceIdeal.Read.val_main_call2_v1 (F := F) (grd m c)) (Host.gather gather_S256x256x3_S176x256x256x2_S176x256x256x3_3_01_n_n_01_3_113 (shapeCast S256x256x3 (img m c) shapeCasts_S1x256x256x3_S256x256x3) (concatenate S176x256x256x2 3 [⟨S176x256x256x1, Cert.ReferenceIdeal.Read.val_main_v80 (F := F) (grd m c)⟩, ⟨S176x256x256x1, Cert.ReferenceIdeal.Read.val_main_v81 (F := F) (grd m c)⟩] concatenates_S176x256x256x1_S176x256x256x1_S176x256x256x2_d3)) (Cert.ReferenceIdeal.Read.val_main_call2_v2 (F := F)) := by
  unfold W0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append]
  after_results_simp
  rfl

set_option maxHeartbeats 40000000 in
/-- The north-east corner: masked by east-and-north, gathered at the masked north row and east column. -/
theorem W_v83 (c : Dev nD) : W0 m c (Proc.devRef .tc main_v83) = select (Cert.ReferenceIdeal.Read.val_main_call5_v1 (F := F) (grd m c)) (Host.gather gather_S256x256x3_S176x256x256x2_S176x256x256x3_3_01_n_n_01_3_113 (shapeCast S256x256x3 (img m c) shapeCasts_S1x256x256x3_S256x256x3) (concatenate S176x256x256x2 3 [⟨S176x256x256x1, Cert.ReferenceIdeal.Read.val_main_v106 (F := F) (grd m c)⟩, ⟨S176x256x256x1, Cert.ReferenceIdeal.Read.val_main_v107 (F := F) (grd m c)⟩] concatenates_S176x256x256x1_S176x256x256x1_S176x256x256x2_d3)) (Cert.ReferenceIdeal.Read.val_main_call5_v2 (F := F)) := by
  unfold W0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append]
  after_results_simp
  rfl

set_option maxHeartbeats 40000000 in
/-- The south-west corner: masked by south-and-west, gathered at the masked south row and west column. -/
theorem W_v102 (c : Dev nD) : W0 m c (Proc.devRef .tc main_v102) = select (Cert.ReferenceIdeal.Read.val_main_call8_v1 (F := F) (grd m c)) (Host.gather gather_S256x256x3_S176x256x256x2_S176x256x256x3_3_01_n_n_01_3_113 (shapeCast S256x256x3 (img m c) shapeCasts_S1x256x256x3_S256x256x3) (concatenate S176x256x256x2 3 [⟨S176x256x256x1, Cert.ReferenceIdeal.Read.val_main_v132 (F := F) (grd m c)⟩, ⟨S176x256x256x1, Cert.ReferenceIdeal.Read.val_main_v133 (F := F) (grd m c)⟩] concatenates_S176x256x256x1_S176x256x256x1_S176x256x256x2_d3)) (Cert.ReferenceIdeal.Read.val_main_call8_v2 (F := F)) := by
  unfold W0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append]
  after_results_simp
  rfl

set_option maxHeartbeats 40000000 in
/-- The south-east corner: masked by east-and-south, gathered at the masked south row and east column. -/
theorem W_v121 (c : Dev nD) : W0 m c (Proc.devRef .tc main_v121) = select (Cert.ReferenceIdeal.Read.val_main_call11_v1 (F := F) (grd m c)) (Host.gather gather_S256x256x3_S176x256x256x2_S176x256x256x3_3_01_n_n_01_3_113 (shapeCast S256x256x3 (img m c) shapeCasts_S1x256x256x3_S256x256x3) (concatenate S176x256x256x2 3 [⟨S176x256x256x1, Cert.ReferenceIdeal.Read.val_main_v158 (F := F) (grd m c)⟩, ⟨S176x256x256x1, Cert.ReferenceIdeal.Read.val_main_v159 (F := F) (grd m c)⟩] concatenates_S176x256x256x1_S176x256x256x1_S176x256x256x2_d3)) (Cert.ReferenceIdeal.Read.val_main_call11_v2 (F := F)) := by
  unfold W0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append]
  after_results_simp
  rfl

end Cert.KernelIdeal.Blend

end
-- ==== Proof.Gather.lean ====
/-
  The four corner gathers of the bilinear sampler, the reference's against the kernel program's.

  Both programs read image values at integer positions computed from the sampling grid, but they present the image and
  the positions to `stablehlo.gather` differently. The reference first copies the `[1, 256, 256, 3]` image to every one
  of the `16 × 11 = 176` batch entries and gathers from that `[176, 256, 256, 3]` array with start indices of three
  components, (batch entry, row, column), the batch component being the entry's own number. The kernel's program gathers
  from the image itself, as a `[256, 256, 3]` array, with start indices of two components, (row, column).

  Every copy of the image is the image: the broadcast array at `(n, y, x, c)` is the image at `(y, x, c)` whatever `n`
  is. So whatever the batch component of a start index is, once clamped into `[0, 175]` it names some copy, and the
  reference's gather reads the image at the clamped (row, column) of the other two components — which is what the
  kernel's gather reads. The two results are equal as whole arrays, for ANY batch component; that the reference's batch
  component is in fact the entry's number (`batch_v79` and its three re-computations) is proved too, but the equality
  does not use it.

  The file first reads each gather at an index (its dimension numbers computed once, for arrays of these ranks and any
  extents), then a join of one-wide pieces along the last axis at an index, then the image as each program presents it,
  and joins them.
-/
import proofs.«172076_j29085518528593_1_alg».proof.Proof.Gen.ReferenceIdeal.Read
import proofs.«172076_j29085518528593_1_alg».proof.Proof.Gen.ReferenceIdeal
import proofs.«172076_j29085518528593_1_alg».proof.Proof.Gen.KernelIdeal
import Idealize.ShloMosaic.Lib.ValueIdx
import Idealize.ShloMosaic.Lib.Pipeline.Value
import Idealize.ShloMosaic.Lib.DynamicIndex

noncomputable section

namespace Cert.Bilinear

open Idealize.ShloMosaic Idealize.ShloMosaic.ValueIdx

/-! ## A gather of channel vectors read at an index -/

section Dims
variable {α : Type}

/-- A start-index component `v` clamped into `[0, n − 1]`, as a coordinate on an axis of extent `n`. -/
def clampFin (n : Nat) (hn : 0 < n) (v : Nat) : Fin n := ⟨min v (n - 1), by omega⟩

/-- A gather of whole channel vectors from an `[N, H, W, C]` operand by three-component start indices
    `(batch, row, column)` laid along the last axis of an `[M, P, Q, 3]` array: the three leading operand axes are
    collapsed and start-indexed, the channel axis is the one offset axis. -/
abbrev dims3 {N H W C M P Q : Nat}
    (wf : GatherDims.WF ⟨4, ![N, H, W, C]⟩ ⟨4, ![M, P, Q, 3]⟩ ⟨4, ![M, P, Q, C]⟩ [3] [0, 1, 2] [] [0, 1, 2] [] 3 ![1, 1, 1, C]) :
    GatherDims ⟨4, ![N, H, W, C]⟩ ⟨4, ![M, P, Q, 3]⟩ ⟨4, ![M, P, Q, C]⟩ where
  offsetDims := [3]
  collapsedSliceDims := [0, 1, 2]
  operandBatchingDims := []
  startIndicesBatchingDims := []
  startIndexMap := [0, 1, 2]
  indexVectorDim := 3
  sliceSizes := ![1, 1, 1, C]
  wf := wf

/-- The start-indices index at which result index `(m, p, q, c)` reads component `k` of its start index. -/
theorem dims3_siIdx {N H W C M P Q : Nat}
    (wf : GatherDims.WF ⟨4, ![N, H, W, C]⟩ ⟨4, ![M, P, Q, 3]⟩ ⟨4, ![M, P, Q, C]⟩ [3] [0, 1, 2] [] [0, 1, 2] [] 3 ![1, 1, 1, C])
    (m : Fin M) (p : Fin P) (q : Fin Q) (c : Fin C) (k : Fin 3) (hk : k.val < (dims3 wf).startIndexMap.length) :
    (dims3 wf).siIdx (ix4 m p q c) ⟨k.val, hk⟩ = ix4 m p q k := by
  funext b; refine Fin.ext ?_
  match b with
  | ⟨0, _⟩ => rfl
  | ⟨1, _⟩ => rfl
  | ⟨2, _⟩ => rfl
  | ⟨3, _⟩ => rfl

/-- THE THREE-COMPONENT GATHER READ AT `(m, p, q, c)`: the operand at the start index `idx[m, p, q, ·]`, each
    component read signed and clamped into its axis, channel `c`. -/
theorem gather3_apply {N H W C M P Q w : Nat} (hN : 0 < N) (hH : 0 < H) (hW : 0 < W)
    (wf : GatherDims.WF ⟨4, ![N, H, W, C]⟩ ⟨4, ![M, P, Q, 3]⟩ ⟨4, ![M, P, Q, C]⟩ [3] [0, 1, 2] [] [0, 1, 2] [] 3 ![1, 1, 1, C])
    (x : (⟨4, ![N, H, W, C]⟩ : Shape).Idx → α) (idx : IVec ⟨4, ![M, P, Q, 3]⟩ w)
    (m : Fin M) (p : Fin P) (q : Fin Q) (c : Fin C) :
    Host.gather (dims3 wf) x idx (ix4 m p q c)
      = x (ix4 (clampFin N hN (idx (ix4 m p q (0 : Fin 3))).toInt.toNat)
               (clampFin H hH (idx (ix4 m p q (1 : Fin 3))).toInt.toNat)
               (clampFin W hW (idx (ix4 m p q (2 : Fin 3))).toInt.toNat) c) := by
  unfold Host.gather
  congr 1
  funext a
  refine Fin.ext ?_
  match a with
  | ⟨0, _⟩ =>
    show (dims3 wf).start (ix4 m p q c) idx 0 + (dims3 wf).batchCoord (ix4 m p q c) 0 + (dims3 wf).offCoord (ix4 m p q c) 0 = _
    rw [GatherDims.batchCoord_eq_zero _ _ _ List.not_mem_nil,
      GatherDims.offCoord_eq_zero _ _ _ (fun h => ((GatherDims.mem_sKept _ _).mp h).1 (show (0 : Fin 4) ∈ ([0, 1, 2] : List (Fin 4)) from by decide))]
    simp only [Nat.add_zero]
    unfold GatherDims.start
    rw [dif_pos (show (0 : Fin 4) ∈ ([0, 1, 2] : List (Fin 4)) from by decide)]
    have hsi : (dims3 wf).siIdx (ix4 m p q c) ⟨List.idxOf (0 : Fin 4) (dims3 wf).startIndexMap,
        List.idxOf_lt_length_iff.2 (show (0 : Fin 4) ∈ ([0, 1, 2] : List (Fin 4)) from by decide)⟩ = ix4 m p q (0 : Fin 3) :=
      dims3_siIdx wf m p q c 0 _
    rw [hsi]
    rfl
  | ⟨1, _⟩ =>
    show (dims3 wf).start (ix4 m p q c) idx 1 + (dims3 wf).batchCoord (ix4 m p q c) 1 + (dims3 wf).offCoord (ix4 m p q c) 1 = _
    rw [GatherDims.batchCoord_eq_zero _ _ _ List.not_mem_nil,
      GatherDims.offCoord_eq_zero _ _ _ (fun h => ((GatherDims.mem_sKept _ _).mp h).1 (show (1 : Fin 4) ∈ ([0, 1, 2] : List (Fin 4)) from by decide))]
    simp only [Nat.add_zero]
    unfold GatherDims.start
    rw [dif_pos (show (1 : Fin 4) ∈ ([0, 1, 2] : List (Fin 4)) from by decide)]
    have hsi : (dims3 wf).siIdx (ix4 m p q c) ⟨List.idxOf (1 : Fin 4) (dims3 wf).startIndexMap,
        List.idxOf_lt_length_iff.2 (show (1 : Fin 4) ∈ ([0, 1, 2] : List (Fin 4)) from by decide)⟩ = ix4 m p q (1 : Fin 3) :=
      dims3_siIdx wf m p q c 1 _
    rw [hsi]
    rfl
  | ⟨2, _⟩ =>
    show (dims3 wf).start (ix4 m p q c) idx 2 + (dims3 wf).batchCoord (ix4 m p q c) 2 + (dims3 wf).offCoord (ix4 m p q c) 2 = _
    rw [GatherDims.batchCoord_eq_zero _ _ _ List.not_mem_nil,
      GatherDims.offCoord_eq_zero _ _ _ (fun h => ((GatherDims.mem_sKept _ _).mp h).1 (show (2 : Fin 4) ∈ ([0, 1, 2] : List (Fin 4)) from by decide))]
    simp only [Nat.add_zero]
    unfold GatherDims.start
    rw [dif_pos (show (2 : Fin 4) ∈ ([0, 1, 2] : List (Fin 4)) from by decide)]
    have hsi : (dims3 wf).siIdx (ix4 m p q c) ⟨List.idxOf (2 : Fin 4) (dims3 wf).startIndexMap,
        List.idxOf_lt_length_iff.2 (show (2 : Fin 4) ∈ ([0, 1, 2] : List (Fin 4)) from by decide)⟩ = ix4 m p q (2 : Fin 3) :=
      dims3_siIdx wf m p q c 2 _
    rw [hsi]
    rfl
  | ⟨3, _⟩ =>
    show (dims3 wf).start (ix4 m p q c) idx 3 + (dims3 wf).batchCoord (ix4 m p q c) 3 + (dims3 wf).offCoord (ix4 m p q c) 3 = c.val
    rw [GatherDims.batchCoord_eq_zero _ _ _ List.not_mem_nil]
    unfold GatherDims.start
    rw [dif_neg (show (3 : Fin 4) ∉ ([0, 1, 2] : List (Fin 4)) from by decide)]
    simp only [Nat.zero_add, Nat.add_zero]
    rfl

/-- A gather of whole channel vectors from an `[H, W, C]` operand by two-component start indices `(row, column)`
    laid along the last axis of an `[M, P, Q, 2]` array: the two leading operand axes are collapsed and
    start-indexed, the channel axis is the one offset axis. -/
abbrev dims2 {H W C M P Q : Nat}
    (wf : GatherDims.WF ⟨3, ![H, W, C]⟩ ⟨4, ![M, P, Q, 2]⟩ ⟨4, ![M, P, Q, C]⟩ [3] [0, 1] [] [0, 1] [] 3 ![1, 1, C]) :
    GatherDims ⟨3, ![H, W, C]⟩ ⟨4, ![M, P, Q, 2]⟩ ⟨4, ![M, P, Q, C]⟩ where
  offsetDims := [3]
  collapsedSliceDims := [0, 1]
  operandBatchingDims := []
  startIndicesBatchingDims := []
  startIndexMap := [0, 1]
  indexVectorDim := 3
  sliceSizes := ![1, 1, C]
  wf := wf

/-- The start-indices index at which result index `(m, p, q, c)` reads component `k` of its start index. -/
theorem dims2_siIdx {H W C M P Q : Nat}
    (wf : GatherDims.WF ⟨3, ![H, W, C]⟩ ⟨4, ![M, P, Q, 2]⟩ ⟨4, ![M, P, Q, C]⟩ [3] [0, 1] [] [0, 1] [] 3 ![1, 1, C])
    (m : Fin M) (p : Fin P) (q : Fin Q) (c : Fin C) (k : Fin 2) (hk : k.val < (dims2 wf).startIndexMap.length) :
    (dims2 wf).siIdx (ix4 m p q c) ⟨k.val, hk⟩ = ix4 m p q k := by
  funext b; refine Fin.ext ?_
  match b with
  | ⟨0, _⟩ => rfl
  | ⟨1, _⟩ => rfl
  | ⟨2, _⟩ => rfl
  | ⟨3, _⟩ => rfl

/-- THE TWO-COMPONENT GATHER READ AT `(m, p, q, c)`: the operand at the start index `idx[m, p, q, ·]`, each
    component read signed and clamped into its axis, channel `c`. -/
theorem gather2_apply {H W C M P Q w : Nat} (hH : 0 < H) (hW : 0 < W)
    (wf : GatherDims.WF ⟨3, ![H, W, C]⟩ ⟨4, ![M, P, Q, 2]⟩ ⟨4, ![M, P, Q, C]⟩ [3] [0, 1] [] [0, 1] [] 3 ![1, 1, C])
    (x : (⟨3, ![H, W, C]⟩ : Shape).Idx → α) (idx : IVec ⟨4, ![M, P, Q, 2]⟩ w)
    (m : Fin M) (p : Fin P) (q : Fin Q) (c : Fin C) :
    Host.gather (dims2 wf) x idx (ix4 m p q c)
      = x (ix3 (clampFin H hH (idx (ix4 m p q (0 : Fin 2))).toInt.toNat)
               (clampFin W hW (idx (ix4 m p q (1 : Fin 2))).toInt.toNat) c) := by
  unfold Host.gather
  congr 1
  funext a
  refine Fin.ext ?_
  match a with
  | ⟨0, _⟩ =>
    show (dims2 wf).start (ix4 m p q c) idx 0 + (dims2 wf).batchCoord (ix4 m p q c) 0 + (dims2 wf).offCoord (ix4 m p q c) 0 = _
    rw [GatherDims.batchCoord_eq_zero _ _ _ List.not_mem_nil,
      GatherDims.offCoord_eq_zero _ _ _ (fun h => ((GatherDims.mem_sKept _ _).mp h).1 (show (0 : Fin 3) ∈ ([0, 1] : List (Fin 3)) from by decide))]
    simp only [Nat.add_zero]
    unfold GatherDims.start
    rw [dif_pos (show (0 : Fin 3) ∈ ([0, 1] : List (Fin 3)) from by decide)]
    have hsi : (dims2 wf).siIdx (ix4 m p q c) ⟨List.idxOf (0 : Fin 3) (dims2 wf).startIndexMap,
        List.idxOf_lt_length_iff.2 (show (0 : Fin 3) ∈ ([0, 1] : List (Fin 3)) from by decide)⟩ = ix4 m p q (0 : Fin 2) :=
      dims2_siIdx wf m p q c 0 _
    rw [hsi]
    rfl
  | ⟨1, _⟩ =>
    show (dims2 wf).start (ix4 m p q c) idx 1 + (dims2 wf).batchCoord (ix4 m p q c) 1 + (dims2 wf).offCoord (ix4 m p q c) 1 = _
    rw [GatherDims.batchCoord_eq_zero _ _ _ List.not_mem_nil,
      GatherDims.offCoord_eq_zero _ _ _ (fun h => ((GatherDims.mem_sKept _ _).mp h).1 (show (1 : Fin 3) ∈ ([0, 1] : List (Fin 3)) from by decide))]
    simp only [Nat.add_zero]
    unfold GatherDims.start
    rw [dif_pos (show (1 : Fin 3) ∈ ([0, 1] : List (Fin 3)) from by decide)]
    have hsi : (dims2 wf).siIdx (ix4 m p q c) ⟨List.idxOf (1 : Fin 3) (dims2 wf).startIndexMap,
        List.idxOf_lt_length_iff.2 (show (1 : Fin 3) ∈ ([0, 1] : List (Fin 3)) from by decide)⟩ = ix4 m p q (1 : Fin 2) :=
      dims2_siIdx wf m p q c 1 _
    rw [hsi]
    rfl
  | ⟨2, _⟩ =>
    show (dims2 wf).start (ix4 m p q c) idx 2 + (dims2 wf).batchCoord (ix4 m p q c) 2 + (dims2 wf).offCoord (ix4 m p q c) 2 = c.val
    rw [GatherDims.batchCoord_eq_zero _ _ _ List.not_mem_nil]
    unfold GatherDims.start
    rw [dif_neg (show (2 : Fin 3) ∉ ([0, 1] : List (Fin 3)) from by decide)]
    simp only [Nat.zero_add, Nat.add_zero]
    rfl

end Dims

/-! ## One-wide pieces joined along the last axis, read at an index -/

section Concat
variable {α : Type}

/-- Three `[M, P, Q, 1]` pieces joined along the last axis: channel `k` of the result is piece `k`. -/
theorem concat3_apply {M P Q : Nat} (x₀ x₁ x₂ : (⟨4, ![M, P, Q, 1]⟩ : Shape).Idx → α)
    (h : Shape.Concatenates [(⟨4, ![M, P, Q, 1]⟩ : Shape), ⟨4, ![M, P, Q, 1]⟩, ⟨4, ![M, P, Q, 1]⟩] ⟨4, ![M, P, Q, 3]⟩ 3)
    (m : Fin M) (p : Fin P) (q : Fin Q) :
    concatenate ⟨4, ![M, P, Q, 3]⟩ 3 [⟨_, x₀⟩, ⟨_, x₁⟩, ⟨_, x₂⟩] h (ix4 m p q (0 : Fin 3)) = x₀ (ix4 m p q (0 : Fin 1))
    ∧ concatenate ⟨4, ![M, P, Q, 3]⟩ 3 [⟨_, x₀⟩, ⟨_, x₁⟩, ⟨_, x₂⟩] h (ix4 m p q (1 : Fin 3)) = x₁ (ix4 m p q (0 : Fin 1))
    ∧ concatenate ⟨4, ![M, P, Q, 3]⟩ 3 [⟨_, x₀⟩, ⟨_, x₁⟩, ⟨_, x₂⟩] h (ix4 m p q (2 : Fin 3)) = x₂ (ix4 m p q (0 : Fin 1)) := by
  have hi : ∀ (k : Fin 3) (b : Fin 4), b.cast rfl ≠ (3 : Fin 4) →
      ((ix4 m p q (0 : Fin 1) : (⟨4, ![M, P, Q, 1]⟩ : Shape).Idx) b).val
        = ((ix4 m p q k : (⟨4, ![M, P, Q, 3]⟩ : Shape).Idx) (b.cast rfl)).val := fun k b hb =>
    match b, hb with
    | ⟨0, _⟩, _ => rfl
    | ⟨1, _⟩, _ => rfl
    | ⟨2, _⟩, _ => rfl
    | ⟨3, _⟩, hb => absurd rfl hb
  refine ⟨?_, ?_, ?_⟩
  · exact concatenate_apply_piece (t := ⟨4, ![M, P, Q, 3]⟩) 3 [⟨_, x₀⟩, ⟨_, x₁⟩, ⟨_, x₂⟩] h (ix4 m p q (0 : Fin 3)) 0
      (Nat.zero_lt_succ _) _ x₀ rfl rfl 0 rfl (ix4 m p q (0 : Fin 1)) (hi 0) rfl
  · exact concatenate_apply_piece (t := ⟨4, ![M, P, Q, 3]⟩) 3 [⟨_, x₀⟩, ⟨_, x₁⟩, ⟨_, x₂⟩] h (ix4 m p q (1 : Fin 3)) 1
      (Nat.succ_lt_succ (Nat.zero_lt_succ _)) _ x₁ rfl rfl 1 rfl (ix4 m p q (0 : Fin 1)) (hi 1) rfl
  · exact concatenate_apply_piece (t := ⟨4, ![M, P, Q, 3]⟩) 3 [⟨_, x₀⟩, ⟨_, x₁⟩, ⟨_, x₂⟩] h (ix4 m p q (2 : Fin 3)) 2
      (Nat.lt_succ_self _) _ x₂ rfl rfl 2 rfl (ix4 m p q (0 : Fin 1)) (hi 2) rfl

/-- Two `[M, P, Q, 1]` pieces joined along the last axis: channel `k` of the result is piece `k`. -/
theorem concat2_apply {M P Q : Nat} (x₀ x₁ : (⟨4, ![M, P, Q, 1]⟩ : Shape).Idx → α)
    (h : Shape.Concatenates [(⟨4, ![M, P, Q, 1]⟩ : Shape), ⟨4, ![M, P, Q, 1]⟩] ⟨4, ![M, P, Q, 2]⟩ 3)
    (m : Fin M) (p : Fin P) (q : Fin Q) :
    concatenate ⟨4, ![M, P, Q, 2]⟩ 3 [⟨_, x₀⟩, ⟨_, x₁⟩] h (ix4 m p q (0 : Fin 2)) = x₀ (ix4 m p q (0 : Fin 1))
    ∧ concatenate ⟨4, ![M, P, Q, 2]⟩ 3 [⟨_, x₀⟩, ⟨_, x₁⟩] h (ix4 m p q (1 : Fin 2)) = x₁ (ix4 m p q (0 : Fin 1)) := by
  have hi : ∀ (k : Fin 2) (b : Fin 4), b.cast rfl ≠ (3 : Fin 4) →
      ((ix4 m p q (0 : Fin 1) : (⟨4, ![M, P, Q, 1]⟩ : Shape).Idx) b).val
        = ((ix4 m p q k : (⟨4, ![M, P, Q, 2]⟩ : Shape).Idx) (b.cast rfl)).val := fun k b hb =>
    match b, hb with
    | ⟨0, _⟩, _ => rfl
    | ⟨1, _⟩, _ => rfl
    | ⟨2, _⟩, _ => rfl
    | ⟨3, _⟩, hb => absurd rfl hb
  refine ⟨?_, ?_⟩
  · exact concatenate_apply_piece (t := ⟨4, ![M, P, Q, 2]⟩) 3 [⟨_, x₀⟩, ⟨_, x₁⟩] h (ix4 m p q (0 : Fin 2)) 0
      (Nat.zero_lt_succ _) _ x₀ rfl rfl 0 rfl (ix4 m p q (0 : Fin 1)) (hi 0) rfl
  · exact concatenate_apply_piece (t := ⟨4, ![M, P, Q, 2]⟩) 3 [⟨_, x₀⟩, ⟨_, x₁⟩] h (ix4 m p q (1 : Fin 2)) 1
      (Nat.lt_succ_self _) _ x₁ rfl rfl 1 rfl (ix4 m p q (0 : Fin 1)) (hi 1) rfl

end Concat

/-! ## The image, as each program presents it to its gather -/

section Image
variable {α : Type}

/-- The image broadcast to every batch entry — `[1, 256, 256, 3]` to `[1, 1, 256, 256, 3]` to `[16, 11, 256, 256, 3]`,
    reshaped to `[176, 256, 256, 3]` — reads, at `(n, y, x, c)`, the image at `(y, x, c)` whatever `n` is. -/
theorem bcastImage_apply (x0 : (⟨4, ![1, 256, 256, 3]⟩ : Shape).Idx → α)
    (h0 : (⟨4, ![1, 256, 256, 3]⟩ : Shape).BroadcastsInDim ⟨5, ![1, 1, 256, 256, 3]⟩ ![0, 2, 3, 4])
    (h1 : (⟨5, ![1, 1, 256, 256, 3]⟩ : Shape).BroadcastsInDim ⟨5, ![16, 11, 256, 256, 3]⟩ ![0, 1, 2, 3, 4])
    (h2 : (⟨5, ![16, 11, 256, 256, 3]⟩ : Shape).ShapeCasts ⟨4, ![176, 256, 256, 3]⟩)
    (n : Fin 176) (y x : Fin 256) (c : Fin 3) :
    shapeCast ⟨4, ![176, 256, 256, 3]⟩
        (broadcastInDim ⟨5, ![16, 11, 256, 256, 3]⟩ ![0, 1, 2, 3, 4] h1
          (broadcastInDim ⟨5, ![1, 1, 256, 256, 3]⟩ ![0, 2, 3, 4] h0 x0)) h2 (ix4 n y x c)
      = x0 (ix4 (0 : Fin 1) y x c) := by
  have hn := n.isLt; have hy := y.isLt; have hx := x.isLt; have hc := c.isLt
  -- the reshape: batch entry `n` is entry `(n / 11, n % 11)` of the `16 × 11` grid of copies
  refine (shapeCast_apply _ h2 (ix4 n y x c)
    (ix5 (⟨n.val / 11, by omega⟩ : Fin 16) (⟨n.val % 11, by omega⟩ : Fin 11) y x c) ?_).trans ?_
  · rewrite [Shape.rowMajor_val_five, Shape.rowMajor_val_four]
    show ((((n.val / 11) * 11 + n.val % 11) * 256 + y.val) * 256 + x.val) * 3 + c.val
      = ((n.val * 256 + y.val) * 256 + x.val) * 3 + c.val
    omega
  -- the two broadcasts: every copy is the image
  refine (broadcastInDim_apply _ h1 _ _ (ix5 (0 : Fin 1) (0 : Fin 1) y x c) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show y.val = if (256 : Nat) = 1 then 0 else y.val; rw [if_neg (by decide)]
    | ⟨3, _⟩ => by show x.val = if (256 : Nat) = 1 then 0 else x.val; rw [if_neg (by decide)]
    | ⟨4, _⟩ => by show c.val = if (3 : Nat) = 1 then 0 else c.val; rw [if_neg (by decide)])).trans ?_
  exact broadcastInDim_apply _ h0 x0 _ (ix4 (0 : Fin 1) y x c) (fun a => match a with
    | ⟨0, _⟩ => by show 0 = if (1 : Nat) = 1 then 0 else _; rw [if_pos rfl]
    | ⟨1, _⟩ => by show y.val = if (256 : Nat) = 1 then 0 else y.val; rw [if_neg (by decide)]
    | ⟨2, _⟩ => by show x.val = if (256 : Nat) = 1 then 0 else x.val; rw [if_neg (by decide)]
    | ⟨3, _⟩ => by show c.val = if (3 : Nat) = 1 then 0 else c.val; rw [if_neg (by decide)])

/-- The image with its unit batch axis dropped reads, at `(y, x, c)`, the image at `(y, x, c)`. -/
theorem dropImage_apply (x0 : (⟨4, ![1, 256, 256, 3]⟩ : Shape).Idx → α)
    (h : (⟨4, ![1, 256, 256, 3]⟩ : Shape).ShapeCasts ⟨3, ![256, 256, 3]⟩) (y x : Fin 256) (c : Fin 3) :
    shapeCast ⟨3, ![256, 256, 3]⟩ x0 h (ix3 y x c) = x0 (ix4 (0 : Fin 1) y x c) := by
  refine shapeCast_apply x0 h (ix3 y x c) (ix4 (0 : Fin 1) y x c) ?_
  rewrite [Shape.rowMajor_val_four, Shape.rowMajor_val_three]
  show ((0 * 256 + y.val) * 256 + x.val) * 3 + c.val = (y.val * 256 + x.val) * 3 + c.val
  omega

end Image

/-! ## The reference's batch component is the batch entry's number -/

section Batch
variable {F : FTy → Type} [FloatOps F]

/-- A batch number `n < 176` as a 32-bit word, put through the normalisation of a possibly negative index
    (`if n < 0 then n + d else n`, compared signed), and read back signed: `n` itself, since `n` is not negative. -/
theorem normBatch_toNat (n : Nat) (hn : n < 176) (d : BitVec 32) :
    (Scalar.select (IntOp.cmpi .slt (BitVec.ofNat 32 n) 0#32) (IntOp.addi (BitVec.ofNat 32 n) d)
      (BitVec.ofNat 32 n)).toInt.toNat = n := by
  have hi : (BitVec.ofNat 32 n).toInt = (n : Int) := toInt_ofNat_of_lt (by omega)
  have hlt : (BitVec.ofNat 32 n).slt 0#32 = false := by
    simp only [BitVec.slt, BitVec.toInt_zero, decide_eq_false_iff_not, Int.not_lt]
    rw [hi]; omega
  have hc : IntOp.cmpi .slt (BitVec.ofNat 32 n) 0#32 = 0#1 := by
    show BitVec.ofBool ((BitVec.ofNat 32 n).slt 0#32) = 0#1
    rw [hlt]; rfl
  rw [hc, select_zero, hi]
  rfl

/-- The batch component of the first corner's start indices at `[n, h, w, 0]` is `n`. -/
theorem batch_v79 (i : Cert.ReferenceIdeal.S176x256x256x1.Idx) :
    (Cert.ReferenceIdeal.Read.val_main_v79 (F := F) i).toInt.toNat = (i 0).val := by
  rw [Cert.ReferenceIdeal.Read.val_main_v79_apply, Cert.ReferenceIdeal.Read.val_main_v78_apply,
    Cert.ReferenceIdeal.Read.val_main_v67_apply, Cert.ReferenceIdeal.Read.val_main_v64_apply,
    Cert.ReferenceIdeal.Read.val_main_v66_apply, Cert.ReferenceIdeal.Read.val_main_v59_apply,
    Cert.ReferenceIdeal.Read.val_main_v58_apply, Cert.ReferenceIdeal.Read.val_main_v63_apply,
    Cert.ReferenceIdeal.Read.val_main_c_18_apply]
  exact normBatch_toNat (i 0).val (i 0).isLt _

/-- The batch component of the second corner's start indices at `[n, h, w, 0]` is `n`. -/
theorem batch_v105 (i : Cert.ReferenceIdeal.S176x256x256x1.Idx) :
    (Cert.ReferenceIdeal.Read.val_main_v105 (F := F) i).toInt.toNat = (i 0).val := by
  rw [Cert.ReferenceIdeal.Read.val_main_v105_apply, Cert.ReferenceIdeal.Read.val_main_v104_apply,
    Cert.ReferenceIdeal.Read.val_main_v93_apply, Cert.ReferenceIdeal.Read.val_main_v90_apply,
    Cert.ReferenceIdeal.Read.val_main_v92_apply, Cert.ReferenceIdeal.Read.val_main_v59_apply,
    Cert.ReferenceIdeal.Read.val_main_v58_apply, Cert.ReferenceIdeal.Read.val_main_v89_apply,
    Cert.ReferenceIdeal.Read.val_main_c_27_apply]
  exact normBatch_toNat (i 0).val (i 0).isLt _

/-- The batch component of the third corner's start indices at `[n, h, w, 0]` is `n`. -/
theorem batch_v131 (i : Cert.ReferenceIdeal.S176x256x256x1.Idx) :
    (Cert.ReferenceIdeal.Read.val_main_v131 (F := F) i).toInt.toNat = (i 0).val := by
  rw [Cert.ReferenceIdeal.Read.val_main_v131_apply, Cert.ReferenceIdeal.Read.val_main_v130_apply,
    Cert.ReferenceIdeal.Read.val_main_v119_apply, Cert.ReferenceIdeal.Read.val_main_v116_apply,
    Cert.ReferenceIdeal.Read.val_main_v118_apply, Cert.ReferenceIdeal.Read.val_main_v59_apply,
    Cert.ReferenceIdeal.Read.val_main_v58_apply, Cert.ReferenceIdeal.Read.val_main_v115_apply,
    Cert.ReferenceIdeal.Read.val_main_c_36_apply]
  exact normBatch_toNat (i 0).val (i 0).isLt _

/-- The batch component of the fourth corner's start indices at `[n, h, w, 0]` is `n`. -/
theorem batch_v157 (i : Cert.ReferenceIdeal.S176x256x256x1.Idx) :
    (Cert.ReferenceIdeal.Read.val_main_v157 (F := F) i).toInt.toNat = (i 0).val := by
  rw [Cert.ReferenceIdeal.Read.val_main_v157_apply, Cert.ReferenceIdeal.Read.val_main_v156_apply,
    Cert.ReferenceIdeal.Read.val_main_v145_apply, Cert.ReferenceIdeal.Read.val_main_v142_apply,
    Cert.ReferenceIdeal.Read.val_main_v144_apply, Cert.ReferenceIdeal.Read.val_main_v59_apply,
    Cert.ReferenceIdeal.Read.val_main_v58_apply, Cert.ReferenceIdeal.Read.val_main_v141_apply,
    Cert.ReferenceIdeal.Read.val_main_c_45_apply]
  exact normBatch_toNat (i 0).val (i 0).isLt _

end Batch

/-! ## The two gathers agree -/

section Main
variable {F : FTy → Type} [FloatOps F] [Cert.KernelIdeal.Facts] [Cert.ReferenceIdeal.Facts]

/-- THE GATHERS AGREE. The reference's gather — from the image copied to every batch entry, by start indices
    (batch `B`, row `Y`, column `X`) — is the kernel program's — from the image, by start indices (row `Y`, column
    `X`) — as whole arrays, whatever the batch components `B` are: every copy is the image. -/
theorem gather_eq (x0 : (⟨Cert.ReferenceIdeal.S1x256x256x3, .f32⟩ : BufTy).Contents (Elt F))
    (B Y X : (⟨Cert.ReferenceIdeal.S176x256x256x1, .i32⟩ : BufTy).Contents (Elt F)) :
    Host.gather Cert.ReferenceIdeal.gather_S176x256x256x3_S176x256x256x3_S176x256x256x3_3_012_n_n_012_3_1113
        (Cert.ReferenceIdeal.Read.val_main_v2 (F := F) x0)
        (concatenate Cert.ReferenceIdeal.S176x256x256x3 3 [⟨Cert.ReferenceIdeal.S176x256x256x1, B⟩, ⟨Cert.ReferenceIdeal.S176x256x256x1, Y⟩, ⟨Cert.ReferenceIdeal.S176x256x256x1, X⟩]
          Cert.ReferenceIdeal.Facts₀.concatenates_S176x256x256x1_S176x256x256x1_S176x256x256x1_S176x256x256x3_d3)
      = Host.gather Cert.KernelIdeal.gather_S256x256x3_S176x256x256x2_S176x256x256x3_3_01_n_n_01_3_113
        (shapeCast Cert.KernelIdeal.S256x256x3 x0 Cert.KernelIdeal.Facts₀.shapeCasts_S1x256x256x3_S256x256x3)
        (concatenate Cert.KernelIdeal.S176x256x256x2 3 [⟨Cert.KernelIdeal.S176x256x256x1, Y⟩, ⟨Cert.KernelIdeal.S176x256x256x1, X⟩]
          Cert.KernelIdeal.Facts₀.concatenates_S176x256x256x1_S176x256x256x1_S176x256x256x2_d3) := by
  funext j
  obtain ⟨n, h, w, c, rfl⟩ : ∃ (n : Fin 176) (h : Fin 256) (w : Fin 256) (c : Fin 3), j = ix4 n h w c :=
    ⟨j 0, j 1, j 2, j 3, eq_ix4 j⟩
  -- each gather at (n, h, w, c): its operand at the clamped start index, channel c
  refine (gather3_apply (by decide) (by decide) (by decide)
    Cert.ReferenceIdeal.Facts₀.gather_S176x256x256x3_S176x256x256x3_S176x256x256x3_3_012_n_n_012_3_1113_wf _ _ n h w c).trans ?_
  refine Eq.trans ?_ (gather2_apply (by decide) (by decide)
    Cert.KernelIdeal.Facts₀.gather_S256x256x3_S176x256x256x2_S176x256x256x3_3_01_n_n_01_3_113_wf _ _ n h w c).symm
  -- the start indices' components: the joined pieces
  rw [(concat3_apply B Y X _ n h w).2.1, (concat3_apply B Y X _ n h w).2.2,
    (concat2_apply Y X _ n h w).1, (concat2_apply Y X _ n h w).2]
  -- the image under both presentations
  exact (bcastImage_apply x0 _ _ _ _ _ _ c).trans (dropImage_apply x0 _ _ _ c).symm

/-! ### The reference's four corner gathers, as the kernel program's gathers -/

/-- The first corner. -/
theorem v83_eq (x0 : (⟨Cert.ReferenceIdeal.S1x256x256x3, .f32⟩ : BufTy).Contents (Elt F))
    (x1 : (⟨Cert.ReferenceIdeal.S16x11x256x256x2, .f32⟩ : BufTy).Contents (Elt F)) :
    Cert.ReferenceIdeal.Read.val_main_v83 (F := F) x0 x1
      = Host.gather Cert.KernelIdeal.gather_S256x256x3_S176x256x256x2_S176x256x256x3_3_01_n_n_01_3_113
        (shapeCast Cert.KernelIdeal.S256x256x3 x0 Cert.KernelIdeal.Facts₀.shapeCasts_S1x256x256x3_S256x256x3)
        (concatenate Cert.KernelIdeal.S176x256x256x2 3
          [⟨Cert.KernelIdeal.S176x256x256x1, Cert.ReferenceIdeal.Read.val_main_v80 (F := F) x1⟩, ⟨Cert.KernelIdeal.S176x256x256x1, Cert.ReferenceIdeal.Read.val_main_v81 (F := F) x1⟩]
          Cert.KernelIdeal.Facts₀.concatenates_S176x256x256x1_S176x256x256x1_S176x256x256x2_d3) :=
  gather_eq x0 (Cert.ReferenceIdeal.Read.val_main_v79 (F := F)) (Cert.ReferenceIdeal.Read.val_main_v80 (F := F) x1)
    (Cert.ReferenceIdeal.Read.val_main_v81 (F := F) x1)

/-- The second corner. -/
theorem v109_eq (x0 : (⟨Cert.ReferenceIdeal.S1x256x256x3, .f32⟩ : BufTy).Contents (Elt F))
    (x1 : (⟨Cert.ReferenceIdeal.S16x11x256x256x2, .f32⟩ : BufTy).Contents (Elt F)) :
    Cert.ReferenceIdeal.Read.val_main_v109 (F := F) x0 x1
      = Host.gather Cert.KernelIdeal.gather_S256x256x3_S176x256x256x2_S176x256x256x3_3_01_n_n_01_3_113
        (shapeCast Cert.KernelIdeal.S256x256x3 x0 Cert.KernelIdeal.Facts₀.shapeCasts_S1x256x256x3_S256x256x3)
        (concatenate Cert.KernelIdeal.S176x256x256x2 3
          [⟨Cert.KernelIdeal.S176x256x256x1, Cert.ReferenceIdeal.Read.val_main_v106 (F := F) x1⟩, ⟨Cert.KernelIdeal.S176x256x256x1, Cert.ReferenceIdeal.Read.val_main_v107 (F := F) x1⟩]
          Cert.KernelIdeal.Facts₀.concatenates_S176x256x256x1_S176x256x256x1_S176x256x256x2_d3) :=
  gather_eq x0 (Cert.ReferenceIdeal.Read.val_main_v105 (F := F)) (Cert.ReferenceIdeal.Read.val_main_v106 (F := F) x1)
    (Cert.ReferenceIdeal.Read.val_main_v107 (F := F) x1)

/-- The third corner. -/
theorem v135_eq (x0 : (⟨Cert.ReferenceIdeal.S1x256x256x3, .f32⟩ : BufTy).Contents (Elt F))
    (x1 : (⟨Cert.ReferenceIdeal.S16x11x256x256x2, .f32⟩ : BufTy).Contents (Elt F)) :
    Cert.ReferenceIdeal.Read.val_main_v135 (F := F) x0 x1
      = Host.gather Cert.KernelIdeal.gather_S256x256x3_S176x256x256x2_S176x256x256x3_3_01_n_n_01_3_113
        (shapeCast Cert.KernelIdeal.S256x256x3 x0 Cert.KernelIdeal.Facts₀.shapeCasts_S1x256x256x3_S256x256x3)
        (concatenate Cert.KernelIdeal.S176x256x256x2 3
          [⟨Cert.KernelIdeal.S176x256x256x1, Cert.ReferenceIdeal.Read.val_main_v132 (F := F) x1⟩, ⟨Cert.KernelIdeal.S176x256x256x1, Cert.ReferenceIdeal.Read.val_main_v133 (F := F) x1⟩]
          Cert.KernelIdeal.Facts₀.concatenates_S176x256x256x1_S176x256x256x1_S176x256x256x2_d3) :=
  gather_eq x0 (Cert.ReferenceIdeal.Read.val_main_v131 (F := F)) (Cert.ReferenceIdeal.Read.val_main_v132 (F := F) x1)
    (Cert.ReferenceIdeal.Read.val_main_v133 (F := F) x1)

/-- The fourth corner. -/
theorem v161_eq (x0 : (⟨Cert.ReferenceIdeal.S1x256x256x3, .f32⟩ : BufTy).Contents (Elt F))
    (x1 : (⟨Cert.ReferenceIdeal.S16x11x256x256x2, .f32⟩ : BufTy).Contents (Elt F)) :
    Cert.ReferenceIdeal.Read.val_main_v161 (F := F) x0 x1
      = Host.gather Cert.KernelIdeal.gather_S256x256x3_S176x256x256x2_S176x256x256x3_3_01_n_n_01_3_113
        (shapeCast Cert.KernelIdeal.S256x256x3 x0 Cert.KernelIdeal.Facts₀.shapeCasts_S1x256x256x3_S256x256x3)
        (concatenate Cert.KernelIdeal.S176x256x256x2 3
          [⟨Cert.KernelIdeal.S176x256x256x1, Cert.ReferenceIdeal.Read.val_main_v158 (F := F) x1⟩, ⟨Cert.KernelIdeal.S176x256x256x1, Cert.ReferenceIdeal.Read.val_main_v159 (F := F) x1⟩]
          Cert.KernelIdeal.Facts₀.concatenates_S176x256x256x1_S176x256x256x1_S176x256x256x2_d3) :=
  gather_eq x0 (Cert.ReferenceIdeal.Read.val_main_v157 (F := F)) (Cert.ReferenceIdeal.Read.val_main_v158 (F := F) x1)
    (Cert.ReferenceIdeal.Read.val_main_v159 (F := F) x1)

end Main

end Cert.Bilinear

end
-- ==== Proof.Concat4.lean ====
/-
  Four arrays of shape 176 x 256 x 256 x 3 laid side by side along the last axis, read at an index.

  The concatenation has 12 channels: channels 0..2 are the first array's, 3..5 the second's, 6..8 the third's and
  9..11 the fourth's. Each statement reads the concatenation at channel `3 k + ch` (`ch < 3`) and finds array `k` at
  channel `ch`, the other three coordinates unchanged: the extents of the pieces before piece `k` sum to `3 k`.
-/
import Idealize.ShloMosaic.Lib.ValueIdx
import Idealize.ShloMosaic.Lib.Pipeline.Value

namespace Cert.Bilinear

open Idealize.ShloMosaic Idealize.ShloMosaic.ValueIdx

/-- Off the channel axis the two indices have the same coordinates, whatever their channels. -/
private theorem off_channel (n : Fin 176) (y x : Fin 256) (ch : Fin 3) (cc : Fin 12)
    (b : Fin (⟨4, ![176, 256, 256, 3]⟩ : Shape).rank)
    (hb : b.cast (rfl : (⟨4, ![176, 256, 256, 3]⟩ : Shape).rank = (⟨4, ![176, 256, 256, 12]⟩ : Shape).rank) ≠ 3) :
    ((ix4 n y x ch) b).val = ((ix4 n y x cc) (b.cast rfl)).val := by
  match b, hb with
  | ⟨0, _⟩, _ => rfl
  | ⟨1, _⟩, _ => rfl
  | ⟨2, _⟩, _ => rfl
  | ⟨3, _⟩, hb => exact absurd rfl hb

/-- Channels 0..2 of the concatenation are the first array. -/
theorem concat4_nw {α : Type} (a b c d : (⟨4, ![176, 256, 256, 3]⟩ : Shape).Idx → α)
    (h : Shape.Concatenates [(⟨4, ![176, 256, 256, 3]⟩ : Shape), ⟨4, ![176, 256, 256, 3]⟩, ⟨4, ![176, 256, 256, 3]⟩,
      ⟨4, ![176, 256, 256, 3]⟩] ⟨4, ![176, 256, 256, 12]⟩ 3)
    (n : Fin 176) (y x : Fin 256) (ch : Fin 3) :
    concatenate (⟨4, ![176, 256, 256, 12]⟩ : Shape) 3
        [⟨⟨4, ![176, 256, 256, 3]⟩, a⟩, ⟨⟨4, ![176, 256, 256, 3]⟩, b⟩, ⟨⟨4, ![176, 256, 256, 3]⟩, c⟩,
          ⟨⟨4, ![176, 256, 256, 3]⟩, d⟩] h
        (ix4 n y x (⟨ch.val, by omega⟩ : Fin 12)) = a (ix4 n y x ch) := by
  refine concatenate_apply_piece (t := ⟨4, ![176, 256, 256, 12]⟩) 3
    [⟨⟨4, ![176, 256, 256, 3]⟩, a⟩, ⟨⟨4, ![176, 256, 256, 3]⟩, b⟩, ⟨⟨4, ![176, 256, 256, 3]⟩, c⟩,
      ⟨⟨4, ![176, 256, 256, 3]⟩, d⟩]
    h _ 0 (show 0 < 4 by omega) ⟨4, ![176, 256, 256, 3]⟩ a rfl rfl 0 rfl (ix4 n y x ch) ?_ ?_
  · exact fun b hb => off_channel n y x ch _ b hb
  · exact Nat.zero_add _

/-- Channels 3..5 of the concatenation are the second array. -/
theorem concat4_ne {α : Type} (a b c d : (⟨4, ![176, 256, 256, 3]⟩ : Shape).Idx → α)
    (h : Shape.Concatenates [(⟨4, ![176, 256, 256, 3]⟩ : Shape), ⟨4, ![176, 256, 256, 3]⟩, ⟨4, ![176, 256, 256, 3]⟩,
      ⟨4, ![176, 256, 256, 3]⟩] ⟨4, ![176, 256, 256, 12]⟩ 3)
    (n : Fin 176) (y x : Fin 256) (ch : Fin 3) :
    concatenate (⟨4, ![176, 256, 256, 12]⟩ : Shape) 3
        [⟨⟨4, ![176, 256, 256, 3]⟩, a⟩, ⟨⟨4, ![176, 256, 256, 3]⟩, b⟩, ⟨⟨4, ![176, 256, 256, 3]⟩, c⟩,
          ⟨⟨4, ![176, 256, 256, 3]⟩, d⟩] h
        (ix4 n y x (⟨3 + ch.val, by omega⟩ : Fin 12)) = b (ix4 n y x ch) := by
  refine concatenate_apply_piece (t := ⟨4, ![176, 256, 256, 12]⟩) 3
    [⟨⟨4, ![176, 256, 256, 3]⟩, a⟩, ⟨⟨4, ![176, 256, 256, 3]⟩, b⟩, ⟨⟨4, ![176, 256, 256, 3]⟩, c⟩,
      ⟨⟨4, ![176, 256, 256, 3]⟩, d⟩]
    h _ 1 (show 1 < 4 by omega) ⟨4, ![176, 256, 256, 3]⟩ b rfl rfl 3 rfl (ix4 n y x ch) ?_ ?_
  · exact fun b hb => off_channel n y x ch _ b hb
  · rfl

/-- Channels 6..8 of the concatenation are the third array. -/
theorem concat4_sw {α : Type} (a b c d : (⟨4, ![176, 256, 256, 3]⟩ : Shape).Idx → α)
    (h : Shape.Concatenates [(⟨4, ![176, 256, 256, 3]⟩ : Shape), ⟨4, ![176, 256, 256, 3]⟩, ⟨4, ![176, 256, 256, 3]⟩,
      ⟨4, ![176, 256, 256, 3]⟩] ⟨4, ![176, 256, 256, 12]⟩ 3)
    (n : Fin 176) (y x : Fin 256) (ch : Fin 3) :
    concatenate (⟨4, ![176, 256, 256, 12]⟩ : Shape) 3
        [⟨⟨4, ![176, 256, 256, 3]⟩, a⟩, ⟨⟨4, ![176, 256, 256, 3]⟩, b⟩, ⟨⟨4, ![176, 256, 256, 3]⟩, c⟩,
          ⟨⟨4, ![176, 256, 256, 3]⟩, d⟩] h
        (ix4 n y x (⟨6 + ch.val, by omega⟩ : Fin 12)) = c (ix4 n y x ch) := by
  refine concatenate_apply_piece (t := ⟨4, ![176, 256, 256, 12]⟩) 3
    [⟨⟨4, ![176, 256, 256, 3]⟩, a⟩, ⟨⟨4, ![176, 256, 256, 3]⟩, b⟩, ⟨⟨4, ![176, 256, 256, 3]⟩, c⟩,
      ⟨⟨4, ![176, 256, 256, 3]⟩, d⟩]
    h _ 2 (show 2 < 4 by omega) ⟨4, ![176, 256, 256, 3]⟩ c rfl rfl 6 rfl (ix4 n y x ch) ?_ ?_
  · exact fun b hb => off_channel n y x ch _ b hb
  · rfl

/-- Channels 9..11 of the concatenation are the fourth array. -/
theorem concat4_se {α : Type} (a b c d : (⟨4, ![176, 256, 256, 3]⟩ : Shape).Idx → α)
    (h : Shape.Concatenates [(⟨4, ![176, 256, 256, 3]⟩ : Shape), ⟨4, ![176, 256, 256, 3]⟩, ⟨4, ![176, 256, 256, 3]⟩,
      ⟨4, ![176, 256, 256, 3]⟩] ⟨4, ![176, 256, 256, 12]⟩ 3)
    (n : Fin 176) (y x : Fin 256) (ch : Fin 3) :
    concatenate (⟨4, ![176, 256, 256, 12]⟩ : Shape) 3
        [⟨⟨4, ![176, 256, 256, 3]⟩, a⟩, ⟨⟨4, ![176, 256, 256, 3]⟩, b⟩, ⟨⟨4, ![176, 256, 256, 3]⟩, c⟩,
          ⟨⟨4, ![176, 256, 256, 3]⟩, d⟩] h
        (ix4 n y x (⟨9 + ch.val, by omega⟩ : Fin 12)) = d (ix4 n y x ch) := by
  refine concatenate_apply_piece (t := ⟨4, ![176, 256, 256, 12]⟩) 3
    [⟨⟨4, ![176, 256, 256, 3]⟩, a⟩, ⟨⟨4, ![176, 256, 256, 3]⟩, b⟩, ⟨⟨4, ![176, 256, 256, 3]⟩, c⟩,
      ⟨⟨4, ![176, 256, 256, 3]⟩, d⟩]
    h _ 3 (show 3 < 4 by omega) ⟨4, ![176, 256, 256, 3]⟩ d rfl rfl 9 rfl (ix4 n y x ch) ?_ ?_
  · exact fun b hb => off_channel n y x ch _ b hb
  · rfl

end Cert.Bilinear
-- ==== Proof.BlendPoint.lean ====
/-
  The bilinear blend, one output element at a time, kernel against reference, over the extended reals.

  At image n, pixel (h, w) and channel ch both sides start from the sampling-grid entry (gx, gy) at (n, h, w): the pixel
  coordinates x = (gx + 1) * 128 - 0.5 and y likewise, their fractional parts fw = x - floor x and fn = y - floor y, the
  complements fe = 1 - fw and fs = 1 - fn, and the four corner weights fs*fe, fs*fw, fn*fe, fn*fw. The reference sums
  ((fs*fe * NW + fn*fe * SW) + fs*fw * NE) + fn*fw * SE over its four corner arrays; the kernel, working on a block of two
  images (n = 2t + j), reads the four corners as channels ch, 3 + ch, 6 + ch, 9 + ch of one twelve-channel array and sums
  ((fs*fe * NW + fs*fw * NE) + fn*fe * SW) + fn*fw * SE. The floor of the kernel's vector unit and the host's are the same
  function on extended reals, the three literals are the same words on both sides, and addition of extended reals is
  commutative and associative, so the two values are equal.

  First the kernel's payloads are read at explicit coordinates (slices, unit-axis reshapes and the spread of a per-pixel
  weight over the channels each read one element of their operand), then the reference's stages, then the two sums are
  matched.
-/
import proofs.«172076_j29085518528593_1_alg».proof.Proof.Gen.ReferenceIdeal.Read
import proofs.«172076_j29085518528593_1_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal
import Mathlib.Algebra.Group.Basic
import Mathlib.Data.EReal.Basic

noncomputable section

namespace Cert.BlendPoint

open Idealize.ShloMosaic Idealize.ShloMosaic.ValueIdx
open Cert.KernelIdeal Cert.KernelIdeal.Gen
open Cert.ReferenceIdeal.Read

variable [Cert.KernelIdeal.Facts] [Cert.ReferenceIdeal.Facts]

/-! ## The kernel at a point -/

/-- The word of 1.0 as an extended real. -/
def one : Ideal .f32 := FloatOps.ofBits .f32 0x3F800000#32
/-- A sampling-grid entry in pixel units: (a + 1) * 128 - 0.5, the three literals as the extended reals their words encode. -/
def pix (a : Ideal .f32) : Ideal .f32 :=
  (a + FloatOps.ofBits (F := Ideal) .f32 0x3F800000#32) * FloatOps.ofBits (F := Ideal) .f32 0x43000000#32
    - FloatOps.ofBits (F := Ideal) .f32 0x3F000000#32
/-- Its fractional part: the pixel coordinate less its floor. -/
def frac (a : Ideal .f32) : Ideal .f32 := pix a - Ideal.liftRound Int.floor (pix a)

/-- The kernel's first reading of its grid block: component 0 of the entry at (j, h, w). -/
theorem grid_read0 (g : Vec Ideal S2x256x256x2 .f32) (j : Fin 2) (h w : Fin 256) :
    shapeCast S2x256x256 (extractStridedSlice S2x256x256x1 ![0, 0, 0, 0] (k0_pay2 g) slices_S2x256x256x2_o0_0_0_0_S2x256x256x1)
      shapeCasts_S2x256x256x1_S2x256x256 (ix3 j h w) = g (ix4 j h w (0 : Fin 2)) := by
  refine (shapeCast_apply _ _ (ix3 j h w) (ix4 j h w (0 : Fin 1)) ?_).trans ?_
  · rw [Shape.rowMajor_val_four, Shape.rowMajor_val_three]
    show ((j.val * 256 + h.val) * 256 + w.val) * 1 + 0 = (j.val * 256 + h.val) * 256 + w.val
    omega
  refine (extractStridedSlice_apply _ _ _ (ix4 j h w (0 : Fin 1)) (ix4 j h w (0 : Fin 2)) ?_).trans ?_
  · intro a
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · exact congrFun (shapeCast_self g _) _

/-- The kernel's second reading of its grid block: component 1 of the entry at (j, h, w). -/
theorem grid_read1 (g : Vec Ideal S2x256x256x2 .f32) (j : Fin 2) (h w : Fin 256) :
    shapeCast S2x256x256 (extractStridedSlice S2x256x256x1 ![0, 0, 0, 1] (k0_pay2 g) slices_S2x256x256x2_o0_0_0_1_S2x256x256x1)
      shapeCasts_S2x256x256x1_S2x256x256 (ix3 j h w) = g (ix4 j h w (1 : Fin 2)) := by
  refine (shapeCast_apply _ _ (ix3 j h w) (ix4 j h w (0 : Fin 1)) ?_).trans ?_
  · rw [Shape.rowMajor_val_four, Shape.rowMajor_val_three]
    show ((j.val * 256 + h.val) * 256 + w.val) * 1 + 0 = (j.val * 256 + h.val) * 256 + w.val
    omega
  refine (extractStridedSlice_apply _ _ _ (ix4 j h w (0 : Fin 1)) (ix4 j h w (1 : Fin 2)) ?_).trans ?_
  · intro a
    match a with
    | ⟨0, _⟩ => exact (Nat.zero_add _).symm
    | ⟨1, _⟩ => exact (Nat.zero_add _).symm
    | ⟨2, _⟩ => exact (Nat.zero_add _).symm
    | ⟨3, _⟩ => rfl
  · exact congrFun (shapeCast_self g _) _

/-- The horizontal weight the kernel computes at (j, h, w): the fractional part of the pixel coordinate of grid component 0. -/
theorem pay3_apply (g : Vec Ideal S2x256x256x2 .f32) (j : Fin 2) (h w : Fin 256) :
    k0_pay3 g (ix3 j h w) = frac (g (ix4 j h w (0 : Fin 2))) :=
  congrArg frac (grid_read0 g j h w)

/-- The vertical weight the kernel computes at (j, h, w): the fractional part of the pixel coordinate of grid component 1. -/
theorem pay5_apply (g : Vec Ideal S2x256x256x2 .f32) (j : Fin 2) (h w : Fin 256) :
    k0_pay5 g (ix3 j h w) = frac (g (ix4 j h w (1 : Fin 2))) :=
  congrArg frac (grid_read1 g j h w)

/-- The complementary horizontal weight. -/
theorem pay4_apply (g : Vec Ideal S2x256x256x2 .f32) (j : Fin 2) (h w : Fin 256) :
    k0_pay4 g (ix3 j h w) = one - frac (g (ix4 j h w (0 : Fin 2))) :=
  congrArg (fun z => one - z) (pay3_apply g j h w)

/-- A per-pixel weight spread over the three channels reads the weight at the pixel. -/
theorem spread_apply (v : FVec Ideal S2x256x256 .f32) (j : Fin 2) (h w : Fin 256) (ch : Fin 3) :
    broadcastTo S2x256x256x3 (shapeCast S2x256x256x1 v shapeCasts_S2x256x256_S2x256x256x1) broadcasts_S2x256x256x1_S2x256x256x3
      (ix4 j h w ch) = v (ix3 j h w) := by
  refine (broadcastTo_apply _ _ (ix4 j h w ch) (ix4 j h w (0 : Fin 1)) ?_).trans ?_
  · intro a
    match a with
    | ⟨0, _⟩ => rfl
    | ⟨1, _⟩ => rfl
    | ⟨2, _⟩ => rfl
    | ⟨3, _⟩ => rfl
  refine shapeCast_apply _ _ (ix4 j h w (0 : Fin 1)) (ix3 j h w) ?_
  rw [Shape.rowMajor_val_four, Shape.rowMajor_val_three]
  show (j.val * 256 + h.val) * 256 + w.val = ((j.val * 256 + h.val) * 256 + w.val) * 1 + 0
  omega

/-- A corner's three channels cut out of the twelve: channel ch of the cut at offset o is channel o + ch. -/
theorem corner_read (cv : Vec Ideal S2x256x256x12 .f32) (o : Nat) (hs : S2x256x256x12.Slices ![0, 0, 0, o] S2x256x256x3)
    (j : Fin 2) (h w : Fin 256) (ch : Fin 3) (c : Fin 12) (hc : c.val = o + ch.val) :
    extractStridedSlice S2x256x256x3 ![0, 0, 0, o] (k0_pay8 cv) hs (ix4 j h w ch) = cv (ix4 j h w c) := by
  refine (extractStridedSlice_apply _ _ _ (ix4 j h w ch) (ix4 j h w c) ?_).trans ?_
  · intro a
    match a with
    | ⟨0, _⟩ => exact (Nat.zero_add _).symm
    | ⟨1, _⟩ => exact (Nat.zero_add _).symm
    | ⟨2, _⟩ => exact (Nat.zero_add _).symm
    | ⟨3, _⟩ => exact hc
  · exact congrFun (shapeCast_self cv _) _

/-- The two lower weights at a pixel: the vertical weight times the complementary horizontal one, and times the
    horizontal one. -/
theorem pay6_apply (g : Vec Ideal S2x256x256x2 .f32) (j : Fin 2) (h w : Fin 256) :
    k0_pay6 g (ix3 j h w) = frac (g (ix4 j h w (1 : Fin 2))) * (one - frac (g (ix4 j h w (0 : Fin 2)))) :=
  congrArg₂ (fun a b : Ideal .f32 => a * b) (pay5_apply g j h w) (pay4_apply g j h w)

theorem pay7_apply (g : Vec Ideal S2x256x256x2 .f32) (j : Fin 2) (h w : Fin 256) :
    k0_pay7 g (ix3 j h w) = frac (g (ix4 j h w (1 : Fin 2))) * frac (g (ix4 j h w (0 : Fin 2))) :=
  congrArg₂ (fun a b : Ideal .f32 => a * b) (pay5_apply g j h w) (pay3_apply g j h w)

/-- The kernel's partial sum over the two upper corners at (j, h, w, ch). -/
theorem pay11_apply (g : Vec Ideal S2x256x256x2 .f32) (cv : Vec Ideal S2x256x256x12 .f32) (j : Fin 2) (h w : Fin 256) (ch : Fin 3)
    (c0 c3 : Fin 12) (h0 : c0.val = 0 + ch.val) (h3 : c3.val = 3 + ch.val) :
    k0_pay11 g cv (ix4 j h w ch)
      = (one - frac (g (ix4 j h w (1 : Fin 2)))) * (one - frac (g (ix4 j h w (0 : Fin 2)))) * cv (ix4 j h w c0)
        + (one - frac (g (ix4 j h w (1 : Fin 2)))) * frac (g (ix4 j h w (0 : Fin 2))) * cv (ix4 j h w c3) := by
  have w1 : (mulf (subf (broadcast S2x256x256 one) (k0_pay5 g)) (k0_pay4 g)) (ix3 j h w)
      = (one - frac (g (ix4 j h w (1 : Fin 2)))) * (one - frac (g (ix4 j h w (0 : Fin 2)))) :=
    congrArg₂ (fun a b : Ideal .f32 => (one - a) * b) (pay5_apply g j h w) (pay4_apply g j h w)
  have w2 : (mulf (subf (broadcast S2x256x256 one) (k0_pay5 g)) (k0_pay3 g)) (ix3 j h w)
      = (one - frac (g (ix4 j h w (1 : Fin 2)))) * frac (g (ix4 j h w (0 : Fin 2))) :=
    congrArg₂ (fun a b : Ideal .f32 => (one - a) * b) (pay5_apply g j h w) (pay3_apply g j h w)
  have key := congrArg₂ (fun a b : Ideal .f32 => a + b)
    (congrArg₂ (fun a b : Ideal .f32 => a * b)
      ((spread_apply (mulf (subf (broadcast S2x256x256 one) (k0_pay5 g)) (k0_pay4 g)) j h w ch).trans w1)
      (corner_read cv 0 slices_S2x256x256x12_o0_0_0_0_S2x256x256x3 j h w ch c0 h0))
    (congrArg₂ (fun a b : Ideal .f32 => a * b)
      ((spread_apply (mulf (subf (broadcast S2x256x256 one) (k0_pay5 g)) (k0_pay3 g)) j h w ch).trans w2)
      (corner_read cv 3 slices_S2x256x256x12_o0_0_0_3_S2x256x256x3 j h w ch c3 h3))
  exact key

/-- THE KERNEL'S VALUE AT A POINT: the four weights times the four corner channels, summed upper-left, upper-right,
    lower-left, lower-right. -/
theorem kernel_point (g : Vec Ideal S2x256x256x2 .f32) (cv : Vec Ideal S2x256x256x12 .f32) (j : Fin 2) (h w : Fin 256) (ch : Fin 3)
    (c0 c3 c6 c9 : Fin 12) (h0 : c0.val = 0 + ch.val) (h3 : c3.val = 3 + ch.val) (h6 : c6.val = 6 + ch.val) (h9 : c9.val = 9 + ch.val) :
    k0_pay1 (k0_pay6 g) (k0_pay7 g) (k0_pay9 cv) (k0_pay10 cv) (k0_pay11 g cv) (ix4 j h w ch)
      = (((one - frac (g (ix4 j h w (1 : Fin 2)))) * (one - frac (g (ix4 j h w (0 : Fin 2)))) * cv (ix4 j h w c0)
          + (one - frac (g (ix4 j h w (1 : Fin 2)))) * frac (g (ix4 j h w (0 : Fin 2))) * cv (ix4 j h w c3))
          + frac (g (ix4 j h w (1 : Fin 2))) * (one - frac (g (ix4 j h w (0 : Fin 2)))) * cv (ix4 j h w c6))
        + frac (g (ix4 j h w (1 : Fin 2))) * frac (g (ix4 j h w (0 : Fin 2))) * cv (ix4 j h w c9) := by
  have key := congrArg₂ (fun a b : Ideal .f32 => a + b)
    (congrArg₂ (fun a b : Ideal .f32 => a + b)
      (pay11_apply g cv j h w ch c0 c3 h0 h3)
      (congrArg₂ (fun a b : Ideal .f32 => a * b)
        ((spread_apply (k0_pay6 g) j h w ch).trans (pay6_apply g j h w))
        (corner_read cv 6 slices_S2x256x256x12_o0_0_0_6_S2x256x256x3 j h w ch c6 h6)))
    (congrArg₂ (fun a b : Ideal .f32 => a * b)
      ((spread_apply (k0_pay7 g) j h w ch).trans (pay7_apply g j h w))
      (corner_read cv 9 slices_S2x256x256x12_o0_0_0_9_S2x256x256x3 j h w ch c9 h9))
  exact key

/-! ## The reference at a point -/

/-- The reference's reading of grid component 0: the reshape of the slice [.., 0:1], at (n, h, w). -/
theorem ref_grid0 (x1 : (⟨Cert.ReferenceIdeal.S16x11x256x256x2, .f32⟩ : BufTy).Contents (Elt Ideal)) (n : Fin 176) (h w : Fin 256) :
    val_main_v5 (F := Ideal) x1 (ix3 n h w) = val_main_v3 (F := Ideal) x1 (ix4 n h w (0 : Fin 2)) := by
  have hh := h.isLt
  have hw := w.isLt
  refine (val_main_v5_apply x1 _).trans ((val_main_v4_apply x1 _).trans (congrArg (val_main_v3 (F := Ideal) x1) ?_))
  funext a
  match a with
  | ⟨0, _⟩ => exact Fin.ext (by show ((n.val * 256 + h.val) * 256 + w.val) / 65536 = n.val; omega)
  | ⟨1, _⟩ => exact Fin.ext (by show ((n.val * 256 + h.val) * 256 + w.val) / 256 % 256 = h.val; omega)
  | ⟨2, _⟩ => exact Fin.ext (by show ((n.val * 256 + h.val) * 256 + w.val) / 1 % 256 = w.val; omega)
  | ⟨3, _⟩ => exact Fin.ext rfl

/-- The reference's reading of grid component 1: the reshape of the slice [.., 1:2], at (n, h, w). -/
theorem ref_grid1 (x1 : (⟨Cert.ReferenceIdeal.S16x11x256x256x2, .f32⟩ : BufTy).Contents (Elt Ideal)) (n : Fin 176) (h w : Fin 256) :
    val_main_v13 (F := Ideal) x1 (ix3 n h w) = val_main_v3 (F := Ideal) x1 (ix4 n h w (1 : Fin 2)) := by
  have hh := h.isLt
  have hw := w.isLt
  refine (val_main_v13_apply x1 _).trans ((val_main_v12_apply x1 _).trans (congrArg (val_main_v3 (F := Ideal) x1) ?_))
  funext a
  match a with
  | ⟨0, _⟩ => exact Fin.ext (by show ((n.val * 256 + h.val) * 256 + w.val) / 65536 = n.val; omega)
  | ⟨1, _⟩ => exact Fin.ext (by show ((n.val * 256 + h.val) * 256 + w.val) / 256 % 256 = h.val; omega)
  | ⟨2, _⟩ => exact Fin.ext (by show ((n.val * 256 + h.val) * 256 + w.val) / 1 % 256 = w.val; omega)
  | ⟨3, _⟩ => exact Fin.ext rfl

/-- The reference's horizontal weight at (n, h, w): the host's floor is the same function as the kernel's. -/
theorem ref_frac0 (x1 : (⟨Cert.ReferenceIdeal.S16x11x256x256x2, .f32⟩ : BufTy).Contents (Elt Ideal)) (n : Fin 176) (h w : Fin 256) :
    val_main_v22 (F := Ideal) x1 (ix3 n h w) = frac (val_main_v3 (F := Ideal) x1 (ix4 n h w (0 : Fin 2))) :=
  congrArg frac (ref_grid0 x1 n h w)

/-- The reference's vertical weight at (n, h, w). -/
theorem ref_frac1 (x1 : (⟨Cert.ReferenceIdeal.S16x11x256x256x2, .f32⟩ : BufTy).Contents (Elt Ideal)) (n : Fin 176) (h w : Fin 256) :
    val_main_v25 (F := Ideal) x1 (ix3 n h w) = frac (val_main_v3 (F := Ideal) x1 (ix4 n h w (1 : Fin 2))) :=
  congrArg frac (ref_grid1 x1 n h w)

/-- The four corner weights of the reference at a pixel. -/
theorem ref_w28 (x1 : (⟨Cert.ReferenceIdeal.S16x11x256x256x2, .f32⟩ : BufTy).Contents (Elt Ideal)) (n : Fin 176) (h w : Fin 256) :
    val_main_v28 (F := Ideal) x1 (ix3 n h w) = (one - frac (val_main_v3 (F := Ideal) x1 (ix4 n h w (1 : Fin 2)))) * (one - frac (val_main_v3 (F := Ideal) x1 (ix4 n h w (0 : Fin 2)))) :=
  congrArg₂ (fun a b : Ideal .f32 => (one - a) * (one - b)) (ref_frac1 x1 n h w) (ref_frac0 x1 n h w)

theorem ref_w29 (x1 : (⟨Cert.ReferenceIdeal.S16x11x256x256x2, .f32⟩ : BufTy).Contents (Elt Ideal)) (n : Fin 176) (h w : Fin 256) :
    val_main_v29 (F := Ideal) x1 (ix3 n h w) = (one - frac (val_main_v3 (F := Ideal) x1 (ix4 n h w (1 : Fin 2)))) * frac (val_main_v3 (F := Ideal) x1 (ix4 n h w (0 : Fin 2))) :=
  congrArg₂ (fun a b : Ideal .f32 => (one - a) * b) (ref_frac1 x1 n h w) (ref_frac0 x1 n h w)

theorem ref_w30 (x1 : (⟨Cert.ReferenceIdeal.S16x11x256x256x2, .f32⟩ : BufTy).Contents (Elt Ideal)) (n : Fin 176) (h w : Fin 256) :
    val_main_v30 (F := Ideal) x1 (ix3 n h w) = frac (val_main_v3 (F := Ideal) x1 (ix4 n h w (1 : Fin 2))) * (one - frac (val_main_v3 (F := Ideal) x1 (ix4 n h w (0 : Fin 2)))) :=
  congrArg₂ (fun a b : Ideal .f32 => a * (one - b)) (ref_frac1 x1 n h w) (ref_frac0 x1 n h w)

theorem ref_w31 (x1 : (⟨Cert.ReferenceIdeal.S16x11x256x256x2, .f32⟩ : BufTy).Contents (Elt Ideal)) (n : Fin 176) (h w : Fin 256) :
    val_main_v31 (F := Ideal) x1 (ix3 n h w) = frac (val_main_v3 (F := Ideal) x1 (ix4 n h w (1 : Fin 2))) * frac (val_main_v3 (F := Ideal) x1 (ix4 n h w (0 : Fin 2))) :=
  congrArg₂ (fun a b : Ideal .f32 => a * b) (ref_frac1 x1 n h w) (ref_frac0 x1 n h w)

/-- Each weight, given a unit channel axis and spread over the three channels, reads the weight at the pixel. -/
theorem ref_spread28 (x1 : (⟨Cert.ReferenceIdeal.S16x11x256x256x2, .f32⟩ : BufTy).Contents (Elt Ideal)) (n : Fin 176) (h w : Fin 256) (ch : Fin 3) :
    val_main_v165 (F := Ideal) x1 (ix4 n h w ch) = val_main_v28 (F := Ideal) x1 (ix3 n h w) :=
  (val_main_v165_apply x1 _).trans ((val_main_v164_apply x1 _).trans (congrArg (val_main_v28 (F := Ideal) x1)
    (funext fun a => match a with | ⟨0, _⟩ => rfl | ⟨1, _⟩ => rfl | ⟨2, _⟩ => rfl)))

/-- The lower-left weight spread over the channels. -/
theorem ref_spread30 (x1 : (⟨Cert.ReferenceIdeal.S16x11x256x256x2, .f32⟩ : BufTy).Contents (Elt Ideal)) (n : Fin 176) (h w : Fin 256) (ch : Fin 3) :
    val_main_v168 (F := Ideal) x1 (ix4 n h w ch) = val_main_v30 (F := Ideal) x1 (ix3 n h w) :=
  (val_main_v168_apply x1 _).trans ((val_main_v167_apply x1 _).trans (congrArg (val_main_v30 (F := Ideal) x1)
    (funext fun a => match a with | ⟨0, _⟩ => rfl | ⟨1, _⟩ => rfl | ⟨2, _⟩ => rfl)))

/-- The upper-right weight spread over the channels. -/
theorem ref_spread29 (x1 : (⟨Cert.ReferenceIdeal.S16x11x256x256x2, .f32⟩ : BufTy).Contents (Elt Ideal)) (n : Fin 176) (h w : Fin 256) (ch : Fin 3) :
    val_main_v172 (F := Ideal) x1 (ix4 n h w ch) = val_main_v29 (F := Ideal) x1 (ix3 n h w) :=
  (val_main_v172_apply x1 _).trans ((val_main_v171_apply x1 _).trans (congrArg (val_main_v29 (F := Ideal) x1)
    (funext fun a => match a with | ⟨0, _⟩ => rfl | ⟨1, _⟩ => rfl | ⟨2, _⟩ => rfl)))

/-- The lower-right weight spread over the channels. -/
theorem ref_spread31 (x1 : (⟨Cert.ReferenceIdeal.S16x11x256x256x2, .f32⟩ : BufTy).Contents (Elt Ideal)) (n : Fin 176) (h w : Fin 256) (ch : Fin 3) :
    val_main_v176 (F := Ideal) x1 (ix4 n h w ch) = val_main_v31 (F := Ideal) x1 (ix3 n h w) :=
  (val_main_v176_apply x1 _).trans ((val_main_v175_apply x1 _).trans (congrArg (val_main_v31 (F := Ideal) x1)
    (funext fun a => match a with | ⟨0, _⟩ => rfl | ⟨1, _⟩ => rfl | ⟨2, _⟩ => rfl)))

/-- THE REFERENCE'S VALUE AT A POINT: the four weights times the four corner values, summed upper-left, lower-left,
    upper-right, lower-right. -/
theorem ref_point (x0 : (⟨Cert.ReferenceIdeal.S1x256x256x3, .f32⟩ : BufTy).Contents (Elt Ideal)) (x1 : (⟨Cert.ReferenceIdeal.S16x11x256x256x2, .f32⟩ : BufTy).Contents (Elt Ideal)) (n : Fin 176) (h w : Fin 256) (ch : Fin 3) :
    val_main_v178 (F := Ideal) x0 x1 (ix4 n h w ch)
      = (((one - frac (val_main_v3 (F := Ideal) x1 (ix4 n h w (1 : Fin 2)))) * (one - frac (val_main_v3 (F := Ideal) x1 (ix4 n h w (0 : Fin 2)))) * val_main_v85 (F := Ideal) x0 x1 (ix4 n h w ch)
          + frac (val_main_v3 (F := Ideal) x1 (ix4 n h w (1 : Fin 2))) * (one - frac (val_main_v3 (F := Ideal) x1 (ix4 n h w (0 : Fin 2)))) * val_main_v137 (F := Ideal) x0 x1 (ix4 n h w ch))
          + (one - frac (val_main_v3 (F := Ideal) x1 (ix4 n h w (1 : Fin 2)))) * frac (val_main_v3 (F := Ideal) x1 (ix4 n h w (0 : Fin 2))) * val_main_v111 (F := Ideal) x0 x1 (ix4 n h w ch))
        + frac (val_main_v3 (F := Ideal) x1 (ix4 n h w (1 : Fin 2))) * frac (val_main_v3 (F := Ideal) x1 (ix4 n h w (0 : Fin 2))) * val_main_v163 (F := Ideal) x0 x1 (ix4 n h w ch) := by
  have key := congrArg₂ (fun a b : Ideal .f32 => a + b)
    (congrArg₂ (fun a b : Ideal .f32 => a + b)
      (congrArg₂ (fun a b : Ideal .f32 => a + b)
        (congrArg (fun a : Ideal .f32 => a * val_main_v85 (F := Ideal) x0 x1 (ix4 n h w ch))
          ((ref_spread28 x1 n h w ch).trans (ref_w28 x1 n h w)))
        (congrArg (fun a : Ideal .f32 => a * val_main_v137 (F := Ideal) x0 x1 (ix4 n h w ch))
          ((ref_spread30 x1 n h w ch).trans (ref_w30 x1 n h w))))
      (congrArg (fun a : Ideal .f32 => a * val_main_v111 (F := Ideal) x0 x1 (ix4 n h w ch))
        ((ref_spread29 x1 n h w ch).trans (ref_w29 x1 n h w))))
    (congrArg (fun a : Ideal .f32 => a * val_main_v163 (F := Ideal) x0 x1 (ix4 n h w ch))
      ((ref_spread31 x1 n h w ch).trans (ref_w31 x1 n h w)))
  exact key

/-! ## Kernel and reference agree at a point -/

/-- At image n and in-block image j: if the kernel's grid block at j is the reference's grid at n and its twelve corner
    channels at j are the reference's four corner arrays at n, the kernel's blend at (j, h, w, ch) is the reference's at
    (n, h, w, ch). The two sums differ only in the order of their two middle terms, and addition of extended reals is
    commutative and associative. -/
theorem blend_point_at (x0 : (⟨Cert.ReferenceIdeal.S1x256x256x3, .f32⟩ : BufTy).Contents (Elt Ideal)) (x1 : (⟨Cert.ReferenceIdeal.S16x11x256x256x2, .f32⟩ : BufTy).Contents (Elt Ideal))
    (g : Vec Ideal Cert.KernelIdeal.S2x256x256x2 .f32) (cv : Vec Ideal Cert.KernelIdeal.S2x256x256x12 .f32) (j : Fin 2) (n : Fin 176)
    (hg : ∀ (h w : Fin 256) (k : Fin 2), g (ix4 j h w k) = val_main_v3 (F := Ideal) x1 (ix4 n h w k))
    (hnw : ∀ (h w : Fin 256) (ch : Fin 3), cv (ix4 j h w (⟨ch.val, by have := ch.isLt; omega⟩ : Fin 12)) = val_main_v85 (F := Ideal) x0 x1 (ix4 n h w ch))
    (hne : ∀ (h w : Fin 256) (ch : Fin 3), cv (ix4 j h w (⟨3 + ch.val, by have := ch.isLt; omega⟩ : Fin 12)) = val_main_v111 (F := Ideal) x0 x1 (ix4 n h w ch))
    (hsw : ∀ (h w : Fin 256) (ch : Fin 3), cv (ix4 j h w (⟨6 + ch.val, by have := ch.isLt; omega⟩ : Fin 12)) = val_main_v137 (F := Ideal) x0 x1 (ix4 n h w ch))
    (hse : ∀ (h w : Fin 256) (ch : Fin 3), cv (ix4 j h w (⟨9 + ch.val, by have := ch.isLt; omega⟩ : Fin 12)) = val_main_v163 (F := Ideal) x0 x1 (ix4 n h w ch))
    (h w : Fin 256) (ch : Fin 3) :
    k0_pay1 (k0_pay6 g) (k0_pay7 g) (k0_pay9 cv) (k0_pay10 cv) (k0_pay11 g cv) (ix4 j h w ch)
      = val_main_v178 (F := Ideal) x0 x1 (ix4 n h w ch) := by
  refine (kernel_point g cv j h w ch ⟨ch.val, by have := ch.isLt; omega⟩ ⟨3 + ch.val, by have := ch.isLt; omega⟩
    ⟨6 + ch.val, by have := ch.isLt; omega⟩ ⟨9 + ch.val, by have := ch.isLt; omega⟩ (Nat.zero_add _).symm rfl rfl rfl).trans ?_
  rw [hg h w 1, hg h w 0, hnw h w ch, hne h w ch, hsw h w ch, hse h w ch]
  refine Eq.trans ?_ (ref_point x0 x1 n h w ch).symm
  exact congrArg (fun z : Ideal .f32 => z + _) (add_right_comm _ _ _)

/-- THE BLEND AT A POINT OF BLOCK t: image n = 2t + j. -/
theorem blend_point (x0 : (⟨Cert.ReferenceIdeal.S1x256x256x3, .f32⟩ : BufTy).Contents (Elt Ideal)) (x1 : (⟨Cert.ReferenceIdeal.S16x11x256x256x2, .f32⟩ : BufTy).Contents (Elt Ideal))
    (g : Vec Ideal Cert.KernelIdeal.S2x256x256x2 .f32) (cv : Vec Ideal Cert.KernelIdeal.S2x256x256x12 .f32) (t : Fin 88)
    (hg : ∀ (j : Fin 2) (h w : Fin 256) (k : Fin 2), g (ix4 j h w k)
      = val_main_v3 (F := Ideal) x1 (ix4 (⟨2 * t.val + j.val, by have := t.isLt; have := j.isLt; omega⟩ : Fin 176) h w k))
    (hnw : ∀ (j : Fin 2) (h w : Fin 256) (ch : Fin 3), cv (ix4 j h w (⟨ch.val, by have := ch.isLt; omega⟩ : Fin 12))
      = val_main_v85 (F := Ideal) x0 x1 (ix4 (⟨2 * t.val + j.val, by have := t.isLt; have := j.isLt; omega⟩ : Fin 176) h w ch))
    (hne : ∀ (j : Fin 2) (h w : Fin 256) (ch : Fin 3), cv (ix4 j h w (⟨3 + ch.val, by have := ch.isLt; omega⟩ : Fin 12))
      = val_main_v111 (F := Ideal) x0 x1 (ix4 (⟨2 * t.val + j.val, by have := t.isLt; have := j.isLt; omega⟩ : Fin 176) h w ch))
    (hsw : ∀ (j : Fin 2) (h w : Fin 256) (ch : Fin 3), cv (ix4 j h w (⟨6 + ch.val, by have := ch.isLt; omega⟩ : Fin 12))
      = val_main_v137 (F := Ideal) x0 x1 (ix4 (⟨2 * t.val + j.val, by have := t.isLt; have := j.isLt; omega⟩ : Fin 176) h w ch))
    (hse : ∀ (j : Fin 2) (h w : Fin 256) (ch : Fin 3), cv (ix4 j h w (⟨9 + ch.val, by have := ch.isLt; omega⟩ : Fin 12))
      = val_main_v163 (F := Ideal) x0 x1 (ix4 (⟨2 * t.val + j.val, by have := t.isLt; have := j.isLt; omega⟩ : Fin 176) h w ch)) :
    ∀ (j : Fin 2) (h w : Fin 256) (ch : Fin 3),
      k0_pay1 (k0_pay6 g) (k0_pay7 g) (k0_pay9 cv) (k0_pay10 cv) (k0_pay11 g cv) (ix4 j h w ch)
        = val_main_v178 (F := Ideal) x0 x1 (ix4 (⟨2 * t.val + j.val, by have := t.isLt; have := j.isLt; omega⟩ : Fin 176) h w ch) :=
  fun j h w ch => blend_point_at x0 x1 g cv j ⟨2 * t.val + j.val, by have := t.isLt; have := j.isLt; omega⟩
    (hg j) (hnw j) (hne j) (hsw j) (hse j) h w ch

end Cert.BlendPoint

end
-- ==== Proof.KValue.lean ====
/-
  The value of the kernel's program: its result array is the reference's last stage of the two arguments.

  Block `t` of the launch's output is the blend of block `t` of the reshaped grid and block `t` of the corner values.
  The reshaped grid is the reference's; the corner values are, channel group by channel group, the reference's four
  masked corner gathers (the image gathered by row and column is the batch-broadcast image gathered by batch entry, row
  and column); and the blend of those, entry by entry, is the reference's weighted sum, the four products added in
  another order. The output blocks cover the output array, so it is the reference's sum array, and the reshape after the
  launch makes it the reference's result.
-/
import proofs.«172076_j29085518528593_1_alg».proof.Proof.KFrame
import proofs.«172076_j29085518528593_1_alg».proof.Proof.KBlocks
import proofs.«172076_j29085518528593_1_alg».proof.Proof.KHost
import proofs.«172076_j29085518528593_1_alg».proof.Proof.Gather
import proofs.«172076_j29085518528593_1_alg».proof.Proof.Concat4
import proofs.«172076_j29085518528593_1_alg».proof.Proof.BlendPoint
import Idealize.ShloMosaic.Lib.Pipeline.Value
import Idealize.ShloMosaic.Lib.ValueIdx

set_option maxRecDepth 16384

noncomputable section

namespace Cert.KernelIdeal.Blend

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The four corners are the reference's -/

theorem nw_eq (c : Dev nD) : W0 m c (Proc.devRef .tc main_v64) = Cert.ReferenceIdeal.Read.val_main_v85 (F := Ideal) (img m c) (grd m c) := by
  rw [W_v64]; unfold Cert.ReferenceIdeal.Read.val_main_v85; rw [Cert.Bilinear.v83_eq]
theorem ne_eq (c : Dev nD) : W0 m c (Proc.devRef .tc main_v83) = Cert.ReferenceIdeal.Read.val_main_v111 (F := Ideal) (img m c) (grd m c) := by
  rw [W_v83]; unfold Cert.ReferenceIdeal.Read.val_main_v111; rw [Cert.Bilinear.v109_eq]
theorem sw_eq (c : Dev nD) : W0 m c (Proc.devRef .tc main_v102) = Cert.ReferenceIdeal.Read.val_main_v137 (F := Ideal) (img m c) (grd m c) := by
  rw [W_v102]; unfold Cert.ReferenceIdeal.Read.val_main_v137; rw [Cert.Bilinear.v135_eq]
theorem se_eq (c : Dev nD) : W0 m c (Proc.devRef .tc main_v121) = Cert.ReferenceIdeal.Read.val_main_v163 (F := Ideal) (img m c) (grd m c) := by
  rw [W_v121]; unfold Cert.ReferenceIdeal.Read.val_main_v163; rw [Cert.Bilinear.v161_eq]

/-! ## One block -/

/-- The blend of block `t` of the two input arrays, at an entry, is the reference's sum at that entry's place in the
    output array. -/
theorem blend_block (c : Dev nD) (t : Fin cfg0.N) (y : S2x256x256x3.Idx) :
    blend (iblk m c 0 t) (iblk m c 1 t) y
      = Cert.ReferenceIdeal.Read.val_main_v178 (F := Ideal) (img m c) (grd m c) (((cfg0.win 2).blk t).view.emb y) := by
  have hN : cfg0.N = 88 := N_0
  have ht : t.val < 88 := hN ▸ t.isLt
  obtain ⟨j, h, w, ch, rfl⟩ : ∃ (j : Fin 2) (h w : Fin 256) (ch : Fin 3), y = ix4 j h w ch := ⟨y 0, y 1, y 2, y 3, eq_ix4 y⟩
  rw [emb_out t (ix4 j h w ch) (ix4 (⟨2 * t.val + j.val, by omega⟩ : Fin 176) h w ch) rfl rfl rfl rfl]
  refine Cert.BlendPoint.blend_point (img m c) (grd m c) (iblk m c 0 t) (iblk m c 1 t) ⟨t.val, ht⟩ ?_ ?_ ?_ ?_ ?_ j h w ch
  · intro j h w k
    rw [iblk0_apply m c t (ix4 j h w k) (ix4 (⟨2 * t.val + j.val, by omega⟩ : Fin 176) h w k) rfl rfl rfl rfl, V_v1, W_v1]
  · intro j h w ch
    rw [iblk1_apply m c t (ix4 j h w (⟨ch.val, by omega⟩ : Fin 12)) (ix4 (⟨2 * t.val + j.val, by omega⟩ : Fin 176) h w (⟨ch.val, by omega⟩ : Fin 12)) rfl rfl rfl rfl,
      V_v122, Cert.Bilinear.concat4_nw, nw_eq]
  · intro j h w ch
    rw [iblk1_apply m c t (ix4 j h w (⟨3 + ch.val, by omega⟩ : Fin 12)) (ix4 (⟨2 * t.val + j.val, by omega⟩ : Fin 176) h w (⟨3 + ch.val, by omega⟩ : Fin 12)) rfl rfl rfl rfl,
      V_v122, Cert.Bilinear.concat4_ne, ne_eq]
  · intro j h w ch
    rw [iblk1_apply m c t (ix4 j h w (⟨6 + ch.val, by omega⟩ : Fin 12)) (ix4 (⟨2 * t.val + j.val, by omega⟩ : Fin 176) h w (⟨6 + ch.val, by omega⟩ : Fin 12)) rfl rfl rfl rfl,
      V_v122, Cert.Bilinear.concat4_sw, sw_eq]
  · intro j h w ch
    rw [iblk1_apply m c t (ix4 j h w (⟨9 + ch.val, by omega⟩ : Fin 12)) (ix4 (⟨2 * t.val + j.val, by omega⟩ : Fin 176) h w (⟨9 + ch.val, by omega⟩ : Fin 12)) rfl rfl rfl rfl,
      V_v122, Cert.Bilinear.concat4_se, se_eq]

/-- What point `t` writes back is block `t` of the reference's sum array. -/
theorem flushed_eq (c : Dev nD) (t : Fin cfg0.N) (hf : (cfg0.win 2).flush t = true) :
    (dats m 0 c).flushed 2 t = ((cfg0.win 2).blk t).view.read (Elt Ideal) (Cert.ReferenceIdeal.Read.val_main_v178 (F := Ideal) (img m c) (grd m c)) := by
  show (cfg0.win 2).cut (grid0.coords t) ((dats m 0 c).after 2 t) = _
  rw [after0_2]
  unfold out0_2
  rw [View.canon_unit_zero hz4]
  simp only [View.ld_unit_zero (S := S2x256x256x2) hz4, View.ld_unit_zero (S := S2x256x256x12) hz4]
  funext y
  exact blend_block m c t y

/-- The output array after the run is the reference's sum array. -/
theorem final_out (c : Dev nD) : (dats m 0 c).arrAt 2 cfg0.N = Cert.ReferenceIdeal.Read.val_main_v178 (F := Ideal) (img m c) (grd m c) :=
  (dats m 0 c).arrAt_eq_of_cover 2 _ (flushed_eq m c) cover

/-- The reshape after the launch turns the output array into the program's result. -/
theorem tail_v124 (c : Dev nD) : Pipeline.afterTail₀ cfgs (dats m) 0 (V0 m) [hostOps1] c main_v124
      = Cert.ReferenceIdeal.Read.val_main_v179 (F := Ideal) (img m c) (grd m c) := by
  unfold Pipeline.afterTail₀
  show StableHlo.after hostOps1 _ (Proc.devRef .tc main_v124) = _
  after_results
  rw [Pipeline.withArrays_arr spec0 launch0.win.arr_inj c _ _ 2, final_out]
  rfl

/-- Every weakly fair execution of the kernel's program ends with its result at the reference's result of the two
    arguments, and both arguments as launched. -/
theorem run_value : θ_run defs (onTc (τ := τ) (main (F := Ideal))) ⟨m, fun _ => 0, ρ⟩ fun r => ∀ c : Dev nD,
      r.2.mem ((c.tc : Thread nD τ).loc main_v124) = Cert.ReferenceIdeal.Read.val_main_v179 (F := Ideal) (img m c) (grd m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v124 (Pipeline.mem_restRefs_of main_v124 (by decide) (by decide))).trans (tail_v124 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Blend

end
-- ==== Proof.lean ====
/-
  A bilinear image sampler against its reference, over the extended reals.

  Both programs turn each sampling-grid entry into pixel coordinates, take their floors and fractional parts, look the
  image up at the four surrounding pixels (zero outside the image) and add the four values weighted by products of the
  fractional parts. The kernel's program does the look-ups with whole-array operations and the weighted sum in a
  launch over blocks of two images; the reference does everything with whole-array operations on a batch-broadcast
  copy of the image. Entry by entry the two results are the same four products added in two orders, and addition of
  extended reals is commutative and associative. Each program runs to its end and leaves its arguments as launched.
-/
import proofs.«172076_j29085518528593_1_alg».proof.Defs
import proofs.«172076_j29085518528593_1_alg».proof.Proof.Gen.Kernel
import proofs.«172076_j29085518528593_1_alg».proof.Proof.Gen.KernelIdeal
import proofs.«172076_j29085518528593_1_alg».proof.Proof.Gen.ReferenceIdeal
import proofs.«172076_j29085518528593_1_alg».proof.Proof.Gen.Pre_finite_inputs
import proofs.«172076_j29085518528593_1_alg».proof.Proof.Gen.ReferenceIdeal.Run
import proofs.«172076_j29085518528593_1_alg».proof.Proof.Gen.ReferenceIdeal.Read
import proofs.«172076_j29085518528593_1_alg».proof.Proof.KFrame
import proofs.«172076_j29085518528593_1_alg».proof.Proof.BFrame
import proofs.«172076_j29085518528593_1_alg».proof.Proof.KValue
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Blend.frame m ρ

/-- So does its idealization. -/
theorem frame_kernelIdeal : Cert.frame_KernelIdeal := fun m ρ _ => Cert.KernelIdeal.Blend.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's last stage of the (shared) arguments as their result. -/
theorem algebraic : Cert.algebraic_KernelIdeal_ReferenceIdeal := fun m ρ m' ρ' _ hagree =>
  ⟨fun c => Cert.ReferenceIdeal.Read.val_main_v179 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blend.run_value m ρ,
    (θ_run Cert.ReferenceIdeal.defs _ _).mono
      (fun _ h c => ⟨by rw [(h c).1, Cert.ReferenceIdeal.Read.val_main_v179_eq, (hagree c).1, (hagree c).2], (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
